-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 1 := constantI S_ 1 1#1
  let main_v26 : IVec S_ 1 := (fun x v => Host.reduce IntOp.andi x v reducesTo_S2x640000_S_d0_1 h_S_) main_v25 main_c_9
  let main_v27 : IVec S_ 1 := andi main_v23 main_v26
  let main_c_10 : IVec S_ 32 := constantI S_ 32 10000#32
  let main_v28 : IVec S2x640000 32 := broadcastInDim S2x640000 ![] bcast_S_S2x640000 main_c_10
  let main_v29 : IVec S2x640000 1 := cmpi .slt main_arg1 main_v28
  let main_c_11 : IVec S_ 1 := constantI S_ 1 1#1
  let main_v30 : IVec S_ 1 := (fun x v => Host.reduce IntOp.andi x v reducesTo_S2x640000_S_d0_1 h_S_) main_v29 main_c_11
  let main_v31 : IVec S_ 1 := andi main_v27 main_v30
  main_v31

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S10000x10000 : Shape := ⟨2, ![10000, 10000]⟩
abbrev S640000x1 : Shape := ⟨2, ![640000, 1]⟩
abbrev S640000x2 : Shape := ⟨2, ![640000, 2]⟩
abbrev S10000 : Shape := ⟨1, ![10000]⟩
abbrev S10000x1 : Shape := ⟨2, ![10000, 1]⟩
abbrev S10000x2 : Shape := ⟨2, ![10000, 2]⟩
abbrev S10240x10240 : Shape := ⟨2, ![10240, 10240]⟩
abbrev S10240x128 : Shape := ⟨2, ![10240, 128]⟩
abbrev S1x128 : Shape := ⟨2, ![1, 128]⟩
abbrev S2048x2048 : Shape := ⟨2, ![2048, 2048]⟩
abbrev S2048x128 : Shape := ⟨2, ![2048, 128]⟩

abbrev nBuf : Space → Nat
  | .hbm => 67
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .f32⟩
  | .hbm, ⟨11, _⟩ => ⟨S10000x10000, .f32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x1, .i32⟩
  | .hbm, ⟨28, _⟩ => ⟨S640000x2, .i32⟩
  | .hbm, ⟨29, _⟩ => ⟨S_, .f32⟩
  | .hbm, ⟨30, _⟩ => ⟨S640000, .f32⟩
  | .hbm, ⟨31, _⟩ => ⟨S10000x10000, .f32⟩
  | .hbm, ⟨32, _⟩ => ⟨S10000, .i32⟩
  | .hbm, ⟨33, _⟩ => ⟨S_, .i32⟩
  | .hbm, ⟨34, _⟩ => ⟨S10000, .i32⟩
  | .hbm, ⟨35, _⟩ => ⟨S10000, .i1⟩
  | .hbm, ⟨36, _⟩ => ⟨S_, .i32⟩
  | .hbm, ⟨37, _⟩ => ⟨S10000, .i32⟩
  | .hbm, ⟨38, _⟩ => ⟨S10000, .i32⟩
  | .hbm, ⟨39, _⟩ => ⟨S10000, .i32⟩
  | .hbm, ⟨40, _⟩ => ⟨S_, .i32⟩
  | .hbm, ⟨41, _⟩ => ⟨S10000, .i32⟩
  | .hbm, ⟨42, _⟩ => ⟨S10000, .i1⟩
  | .hbm, ⟨43, _⟩ => ⟨S_, .i32⟩
  | .hbm, ⟨44, _⟩ => ⟨S10000, .i32⟩
  | .hbm, ⟨45, _⟩ => ⟨S10000, .i32⟩
  | .hbm, ⟨46, _⟩ => ⟨S10000, .i32⟩
  | .hbm, ⟨47, _⟩ => ⟨S10000x1, .i32⟩
  | .hbm, ⟨48, _⟩ => ⟨S10000x1, .i32⟩
  | .hbm, ⟨49, _⟩ => ⟨S10000x2, .i32⟩
  | .hbm, ⟨50, _⟩ => ⟨S_, .f32⟩
  | .hbm, ⟨51, _⟩ => ⟨S10000, .f32⟩
  | .hbm, ⟨52, _⟩ => ⟨S10000x10000, .f32⟩
  | .hbm, ⟨53, _⟩ => ⟨S_, .i32⟩
  | .hbm, ⟨54, _⟩ => ⟨S_, .f32⟩
  | .hbm, ⟨55, _⟩ => ⟨S10240x10240, .f32⟩
  | .hbm, ⟨56, _⟩ => ⟨S_, .i32⟩
  | .hbm, ⟨57, _⟩ => ⟨S_, .f32⟩
  | .hbm, ⟨58, _⟩ => ⟨S10240x128, .f32⟩
  | .hbm, ⟨59, _⟩ => ⟨S10240x10240, .bf16⟩
  | .hbm, ⟨60, _⟩ => ⟨S10240x128, .bf16⟩
  | .hbm, ⟨61, _⟩ => ⟨S128x128, .bf16⟩
  | .hbm, ⟨62, _⟩ => ⟨S128x128, .bf16⟩
  | .hbm, ⟨63, _⟩ => ⟨S1x128, .f32⟩
  | .hbm, ⟨64, _⟩ => ⟨S1x128, .f32⟩
  | .hbm, ⟨65, _⟩ => ⟨S10240x128, .f32⟩
  | .hbm, ⟨66, _⟩ => ⟨S10000x128, .f32⟩
  | .local _ .vmem, ⟨0, _⟩ => ⟨S2048x2048, .bf16⟩
  | .local _ .vmem, ⟨1, _⟩ => ⟨S2048x2048, .bf16⟩
  | .local _ .vmem, ⟨2, _⟩ => ⟨S2048x128, .bf16⟩
  | .local _ .vmem, ⟨3, _⟩ => ⟨S2048x128, .bf16⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_call0_v0 : Ref sig .tc := ⟨.hbm, 54, rfl⟩
abbrev main_v36 : Ref sig .tc := ⟨.hbm, 55, rfl⟩
abbrev main_c_10 : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![5, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S10000x10000 : S_.BroadcastsInDim S10000x10000 (![] : Fin 0 → Fin S10000x10000.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x1_S640000x1_S640000x2_d1 : Shape.Concatenates [S640000x1, S640000x1] S640000x2 1
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  pads_S10000x10000_S10240x10240_02400_02400 : S10000x10000.Pads (![0, 0] : Fin 2 → Nat) ![240, 240] ![0, 0] S10240x10240
  h_S_ : 0 < S_.numel
  pads_S10000x128_S10240x128_02400_000 : S10000x128.Pads (![0, 0] : Fin 2 → Nat) ![240, 0] ![0, 0] S10240x128
  bitsLt_bf16_f32 : FTy.bits .bf16 < FTy.bits .f32
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S10240x128_S10000x128_0_0 : S10240x128.Slices ![0, 0] S10000x128
  scatter_S10000x10000_S640000x2_S640000_n_01_01_1_wf : ScatterDims.WF S10000x10000 S640000x2 S640000 [] [0, 1] [0, 1] 1
  scatter_S10000x10000_S10000x2_S10000_n_01_01_1_wf : ScatterDims.WF S10000x10000 S10000x2 S10000 [] [0, 1] [0, 1] 1
  dot_S2048x2048_S2048x128_S2048x128_1_0_0_1_n_n_wf : DotDims.WF S2048x2048 S2048x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S10240x10240.size a
  hwx0_0 : ∀ i : grid0.Coords, EltTy.bits .bf16 = 32 ∨ (Rect.block (s := S10240x10240) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S10240x128.size a
  hwx0_1 : ∀ i : grid0.Coords, EltTy.bits .bf16 = 32 ∨ (Rect.block (s := S10240x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S10240x128.size a
  hwx0_6 : ∀ i : grid0.Coords, EltTy.bits .f32 = 32 ∨ (Rect.block (s := S10240x128) S2048x128.size (cc0_transform_6 i) (hinb0_6 i)).WholeWords (EltTy.packing .f32)

variable [Facts₀]

def scatter_S10000x10000_S640000x2_S640000_n_01_01_1 : ScatterDims S10000x10000 S640000x2 S640000 where
  updateWindowDims := []
  insertedWindowDims := [0, 1]
  scatterDimsToOperandDims := [0, 1]
  indexVectorDim := 1
  wf := scatter_S10000x10000_S640000x2_S640000_n_01_01_1_wf
def scatter_S10000x10000_S10000x2_S10000_n_01_01_1 : ScatterDims S10000x10000 S10000x2 S10000 where
  updateWindowDims := []
  insertedWindowDims := [0, 1]
  scatterDimsToOperandDims := [0, 1]
  indexVectorDim := 1
  wf := scatter_S10000x10000_S10000x2_S10000_n_01_01_1_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v38) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S10000x128, .f32⟩
  | .hbm, ⟨21, _⟩ => ⟨S640000x1, .i32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KPieces.lean ====
/-
  What one run of the kernel body leaves, case by case, as pure terms of the blocks it loads.

  The body keeps a [2048, 128] accumulator across the five column blocks of a row block: at the first column block it
  zeroes it, at every column block it adds (adjacency block) · (feature block), and at the last it stores
  max(acc · W1 + b1, 0) · W2 + b2 into the output block.  Each case's stores cover the buffer whole, so what is read
  back is the last store's payload.
-/
import proofs.«411089_j89635967467763_1_alg».proof.Proof.Gen.KernelIdeal.Frame
import Idealize.ShloMosaic.Lib.Pipeline.Value
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → ℕ) = fun _ => 0 := by funext a; fin_cases a <;> rfl

/-- At the first point of a row block the accumulator is zeroed and the first product added. -/
theorem sA (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (hc0 : cond0_0 i) (hc1 : ¬cond0_1 i) (x0 : Vec F S2048x2048 .bf16) (x1 : Vec F S2048x128 .bf16) (x2 : Vec F S128x128 .bf16) (x3 : Vec F S1x128 .f32) (x4 : Vec F S128x128 .bf16) (x5 : Vec F S1x128 .f32) :
    sout0_A_0 c i arg2 harg2 arg3 harg3 arg4 harg4 arg5 harg5 arg6 harg6 arg7 harg7 arg8 harg8 arg9 harg9 hc0 hc1 x0 x1 x2 x3 x4 x5 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S2048x128) hz2]
  simp only [View.readCov_unit_zero (S := S2048x128) _ hz2, View.readAt_eq_ld, harg2.read_unread, harg3.read_unread,
    View.ld_unit_zero (S := S2048x2048) hz2, View.ld_unit_zero (S := S2048x128) hz2]

/-- At a middle point the block's product is added to what the point before left. -/
theorem sB (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i) (hc1 : ¬cond0_1 i) (x0 : Vec F S2048x2048 .bf16) (x1 : Vec F S2048x128 .bf16) (x2 : Vec F S128x128 .bf16) (x3 : Vec F S1x128 .f32) (x4 : Vec F S128x128 .bf16) (x5 : Vec F S1x128 .f32) (xs0 : Vec F S2048x128 .f32) :
    sout0_B_0 c i arg2 harg2 arg3 harg3 arg4 harg4 arg5 harg5 arg6 harg6 arg7 harg7 arg8 harg8 arg9 harg9 hc0 hc1 x0 x1 x2 x3 x4 x5 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S2048x128) hz2]
  simp only [View.readAt_eq_ld, harg2.read_unread, harg3.read_unread, harg9.read_unread,
    View.ld_unit_zero (S := S2048x2048) hz2, View.ld_unit_zero (S := S2048x128) hz2]

/-- At the last point of a row block the accumulator gets the last product, -/
theorem sC (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i) (hc1 : cond0_1 i) (x0 : Vec F S2048x2048 .bf16) (x1 : Vec F S2048x128 .bf16) (x2 : Vec F S128x128 .bf16) (x3 : Vec F S1x128 .f32) (x4 : Vec F S128x128 .bf16) (x5 : Vec F S1x128 .f32) (xs0 : Vec F S2048x128 .f32) :
    sout0_C_0 c i arg2 harg2 arg3 harg3 arg4 harg4 arg5 harg5 arg6 harg6 arg7 harg7 arg8 harg8 arg9 harg9 hc0 hc1 x0 x1 x2 x3 x4 x5 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S2048x128) hz2]
  simp only [View.readAt_eq_ld, harg2.read_unread, harg3.read_unread, harg9.read_unread,
    View.ld_unit_zero (S := S2048x2048) hz2, View.ld_unit_zero (S := S2048x128) hz2]

/-- and the output block is the two dense layers of the finished accumulator. -/
theorem oC (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S128x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S2048x128 .f32) (harg8 : arg8.IsWhole) (arg9 : Memref sig .tc .vmem S2048x128 .f32) (harg9 : arg9.IsWhole) (hc0 : ¬cond0_0 i) (hc1 : cond0_1 i) (x0 : Vec F S2048x2048 .bf16) (x1 : Vec F S2048x128 .bf16) (x2 : Vec F S128x128 .bf16) (x3 : Vec F S1x128 .f32) (x4 : Vec F S128x128 .bf16) (x5 : Vec F S1x128 .f32) (xs0 : Vec F S2048x128 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 xs0 x0 x1) x2 x3 x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S2048x128) hz2]
  simp only [View.readCov_unit_zero (S := S2048x128) _ hz2, View.readAt_eq_ld, harg2.read_unread, harg3.read_unread,
    harg4.read_unread, harg5.read_unread, harg6.read_unread, harg7.read_unread, harg9.read_unread,
    View.ld_unit_zero (S := S2048x2048) hz2, View.ld_unit_zero (S := S2048x128) hz2,
    View.ld_unit_zero (S := S128x128) hz2, View.ld_unit_zero (S := S1x128) hz2]

end Cert.KernelIdeal.KValue

end
-- ==== Proof.KPay.lean ====
/-
  The body's arithmetic read at one entry, on the extended reals.

  A change of float format is the identity here and the matrix unit's product into a zero accumulator is the plain
  sum over the contracted axis; so the accumulator update is  v(r, d) + Σ_j a(r, j) · x(j, d)  and the output block is
  Σ_k max(Σ_k' v(r, k') · w1(k', k) + b1(k), 0) · w2(k, d) + b2(d).
-/
import proofs.«411089_j89635967467763_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.ValueIdx

theorem dA_l0 (i : S2048x128.Idx) (q : dot_S2048x2048_S2048x128_S2048x128_1_0_0_1_n_n.contr.Idx) : (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem dA_l1 (i : S2048x128.Idx) (q : dot_S2048x2048_S2048x128_S2048x128_1_0_0_1_n_n.contr.Idx) : (dot_S2048x2048_S2048x128_S2048x128_1_0_0_1_n_n.lhsIdx i q 1).val = (q ⟨0, by decide⟩).val :=
  dot_S2048x2048_S2048x128_S2048x128_1_0_0_1_n_n.lhsIdx_val_of_single rfl i q
theorem dA_r0 (i : S2048x128.Idx) (q : dot_S2048x2048_S2048x128_S2048x128_1_0_0_1_n_n.contr.Idx) : (dot_S2048x2048_S2048x128_S2048x128_1_0_0_1_n_n.rhsIdx i q 0).val = (q ⟨0, by decide⟩).val :=
  dot_S2048x2048_S2048x128_S2048x128_1_0_0_1_n_n.rhsIdx_val_of_single rfl i q
theorem dA_r1 (i : S2048x128.Idx) (q : dot_S2048x2048_S2048x128_S2048x128_1_0_0_1_n_n.contr.Idx) : (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

theorem dB_l0 (i : S2048x128.Idx) (q : dot_S2048x128_S128x128_S2048x128_1_0_0_1_n_n.contr.Idx) : (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem dB_l1 (i : S2048x128.Idx) (q : dot_S2048x128_S128x128_S2048x128_1_0_0_1_n_n.contr.Idx) : (dot_S2048x128_S128x128_S2048x128_1_0_0_1_n_n.lhsIdx i q 1).val = (q ⟨0, by decide⟩).val :=
  dot_S2048x128_S128x128_S2048x128_1_0_0_1_n_n.lhsIdx_val_of_single rfl i q
theorem dB_r0 (i : S2048x128.Idx) (q : dot_S2048x128_S128x128_S2048x128_1_0_0_1_n_n.contr.Idx) : (dot_S2048x128_S128x128_S2048x128_1_0_0_1_n_n.rhsIdx i q 0).val = (q ⟨0, by decide⟩).val :=
  dot_S2048x128_S128x128_S2048x128_1_0_0_1_n_n.rhsIdx_val_of_single rfl i q
theorem dB_r1 (i : S2048x128.Idx) (q : dot_S2048x128_S128x128_S2048x128_1_0_0_1_n_n.contr.Idx) : (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The matrix unit's product into a zero accumulator, read at row `r`, column `d`: the sum over the 2048 contracted positions. -/
theorem dA_apply (a : FVec Ideal S2048x2048 .bf16) (x : FVec Ideal S2048x128 .bf16) (r : Fin 2048) (d : Fin 128) :
    matmul dot_S2048x2048_S2048x128_S2048x128_1_0_0_1_n_n none a x (constant (F := Ideal) S2048x128 .f32 0x00000000#32) (ix2 r d)
      = ∑ j : Fin 2048, a (ix2 r j) * x (ix2 j d) := by
  refine (Ideal.matmul_constant_zero_apply dot_S2048x2048_S2048x128_S2048x128_1_0_0_1_n_n none a x (ix2 r d)).trans ?_
  rw [← Equiv.sum_comp (ValueIdx.contrEquiv1 dot_S2048x2048_S2048x128_S2048x128_1_0_0_1_n_n 2048 rfl rfl).symm]
  refine Finset.sum_congr rfl fun k _ => ?_
  have hk := ValueIdx.contrEquiv1_symm_val dot_S2048x2048_S2048x128_S2048x128_1_0_0_1_n_n 2048 rfl rfl k
  have el : dot_S2048x2048_S2048x128_S2048x128_1_0_0_1_n_n.lhsIdx (ix2 r d) ((ValueIdx.contrEquiv1 dot_S2048x2048_S2048x128_S2048x128_1_0_0_1_n_n 2048 rfl rfl).symm k) = ix2 r k := funext fun a => Fin.ext (by
    match a with
    | ⟨0, _⟩ => exact dA_l0 _ _
    | ⟨1, _⟩ => exact (dA_l1 _ _).trans hk)
  have er : dot_S2048x2048_S2048x128_S2048x128_1_0_0_1_n_n.rhsIdx (ix2 r d) ((ValueIdx.contrEquiv1 dot_S2048x2048_S2048x128_S2048x128_1_0_0_1_n_n 2048 rfl rfl).symm k) = ix2 k d := funext fun a => Fin.ext (by
    match a with
    | ⟨0, _⟩ => exact (dA_r0 _ _).trans hk
    | ⟨1, _⟩ => exact dA_r1 _ _)
  rw [el, er]

/-- The matrix unit's product into a zero accumulator, read at row `r`, column `d`: the sum over the 128 contracted positions. -/
theorem dB_apply (a : FVec Ideal S2048x128 .bf16) (x : FVec Ideal S128x128 .bf16) (r : Fin 2048) (d : Fin 128) :
    matmul dot_S2048x128_S128x128_S2048x128_1_0_0_1_n_n none a x (constant (F := Ideal) S2048x128 .f32 0x00000000#32) (ix2 r d)
      = ∑ j : Fin 128, a (ix2 r j) * x (ix2 j d) := by
  refine (Ideal.matmul_constant_zero_apply dot_S2048x128_S128x128_S2048x128_1_0_0_1_n_n none a x (ix2 r d)).trans ?_
  rw [← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 r d) ((ValueIdx.contrEquiv1 dot_S2048x128_S128x128_S2048x128_1_0_0_1_n_n 128 rfl rfl).symm k) = ix2 r k := funext fun a => Fin.ext (by
    match a with
    | ⟨0, _⟩ => exact dB_l0 _ _
    | ⟨1, _⟩ => exact (dB_l1 _ _).trans hk)
  have er : dot_S2048x128_S128x128_S2048x128_1_0_0_1_n_n.rhsIdx (ix2 r d) ((ValueIdx.contrEquiv1 dot_S2048x128_S128x128_S2048x128_1_0_0_1_n_n 128 rfl rfl).symm k) = ix2 k d := funext fun a => Fin.ext (by
    match a with
    | ⟨0, _⟩ => exact (dB_r0 _ _).trans hk
    | ⟨1, _⟩ => exact dB_r1 _ _)
  rw [el, er]

/-- The accumulator update at an entry. -/
theorem pay2_apply (v : Vec Ideal S2048x128 .f32) (a : Vec Ideal S2048x2048 .bf16) (x : Vec Ideal S2048x128 .bf16)
    (r : Fin 2048) (d : Fin 128) :
    k0_pay2 (F := Ideal) v a x (ix2 r d) = v (ix2 r d) + ∑ j : Fin 2048, a (ix2 r j) * x (ix2 j d) := by
  unfold k0_pay2
  simp only [shapeCast_self]
  rw [addf_apply, dA_apply]

/-- The zeroed accumulator. -/
theorem pay1_apply (y : S2048x128.Idx) : k0_pay1 (F := Ideal) y = 0 := by
  unfold k0_pay1
  simp only [shapeCast_self]
  show Ideal.ofBits .f32 0x00000000#32 = 0
  exact Ideal.ofBits_zero_f32

/-- A one-row bias broadcast down the rows. -/
theorem bias_apply (b : FVec Ideal S1x128 .f32) (r : Fin 2048) (d : Fin 128) :
    broadcastTo S2048x128 b broadcasts_S1x128_S2048x128 (ix2 r d) = b (ix2 (0 : Fin 1) d) := by
  refine broadcastTo_apply b _ _ _ fun a => ?_
  match a with
  | ⟨0, _⟩ => rfl
  | ⟨1, _⟩ => rfl

/-- The output block at an entry: the two dense layers of the accumulator's row. -/
theorem pay3_apply (v : Vec Ideal S2048x128 .f32) (w1 : Vec Ideal S128x128 .bf16) (b1 : Vec Ideal S1x128 .f32)
    (w2 : Vec Ideal S128x128 .bf16) (b2 : Vec Ideal S1x128 .f32) (r : Fin 2048) (d : Fin 128) :
    k0_pay3 (F := Ideal) v w1 b1 w2 b2 (ix2 r d)
      = (∑ k : Fin 128, max ((∑ k' : Fin 128, v (ix2 r k') * w1 (ix2 k' k)) + b1 (ix2 (0 : Fin 1) k)) 0 * w2 (ix2 k d))
          + b2 (ix2 (0 : Fin 1) d) := by
  unfold k0_pay3
  simp only [shapeCast_self]
  rw [addf_apply, bias_apply, dB_apply]
  simp only [truncf_apply, maximumf_apply, addf_apply, dB_apply, bias_apply, broadcast_apply, Ideal.ofBits_def,
    Ideal.ofBits_zero_f32]

end Cert.KernelIdeal.KValue

end
-- ==== Proof.KAcc.lean ====
/-
  The accumulator across a row block's five column blocks, and what it holds at the end.

  Grid position t = 5·i + k is row block i, column block k.  The accumulator is zeroed at k = 0 and at every k gets
  (adjacency block (i, k)) · (feature block k) added; so after k = 4 its entry (r, d) is
      Σ_{s < 5} Σ_{j < 2048} A(2048·i + r, 2048·s + j) · X(2048·s + j, d),
  row 2048·i + r of the padded adjacency operand times column d of the padded feature operand.
-/
import proofs.«411089_j89635967467763_1_alg».proof.Proof.KPieces
import proofs.«411089_j89635967467763_1_alg».proof.Proof.KPay

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

section generic
variable {F : FTy → Type} [FloatOps F]
variable (m : (ℓ : Loc nD τ sig) → Buf (Elt F) ℓ)

/-- The accumulator after the body at grid position `n`. -/
def acc (c : Dev nD) (n : ℕ) (h : n < cfg0.N) : Vec F S2048x128 .f32 := (outsAt0 m c n h).2

/-- At the first column block of a row block: zero, plus that block's product. -/
theorem acc_reset (c : Dev nD) (n : ℕ) (h : n < cfg0.N) (h0 : n % 5 = 0) :
    acc m c n h = k0_pay2 (k0_pay1 (F := F)) (iblk m c 0 ⟨n, h⟩) (iblk m c 1 ⟨n, h⟩) := by
  have hN : n < 25 := lt_of_lt_of_eq h (show cfg0.N = 25 from N_0)
  have h1 : ¬n % 5 = 4 := by omega
  unfold acc
  rw [outsAt0_A m c ⟨n, h⟩ h0 h1]
  dsimp only
  exact sA c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩) (iblk m c 5 ⟨n, h⟩)

/-- At every other column block: what the position before left, plus this block's product. -/
theorem acc_step (c : Dev nD) (n : ℕ) (h : n + 1 < cfg0.N) (h0 : ¬(n + 1) % 5 = 0) :
    acc m c (n + 1) h = k0_pay2 (acc m c n (Nat.lt_of_succ_lt h)) (iblk m c 0 ⟨n + 1, h⟩) (iblk m c 1 ⟨n + 1, h⟩) := by
  unfold acc
  by_cases h1 : (n + 1) % 5 = 4
  · rw [outsAt0_C m c ⟨n + 1, h⟩ h0 h1]
    dsimp only
    exact sC c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c ((⟨n + 1, h⟩ : Fin cfg0.N).val - 1) (Nat.lt_of_le_of_lt (Nat.sub_le _ _) (⟨n + 1, h⟩ : Fin cfg0.N).isLt)).2
  · rw [outsAt0_B m c ⟨n + 1, h⟩ h0 h1]
    dsimp only
    exact sB c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c ((⟨n + 1, h⟩ : Fin cfg0.N).val - 1) (Nat.lt_of_le_of_lt (Nat.sub_le _ _) (⟨n + 1, h⟩ : Fin cfg0.N).isLt)).2

/-- At the last column block the output block is the two dense layers of the finished accumulator. -/
theorem out_flush (c : Dev nD) (t : Fin cfg0.N) (h4 : t.val % 5 = 4) :
    (outsAt0 m c t.val t.isLt).1 = k0_pay3 (acc m c t.val t.isLt) (iblk m c 2 t) (iblk m c 3 t) (iblk m c 4 t) (iblk m c 5 t) := by
  have h0 : ¬t.val % 5 = 0 := by omega
  unfold acc
  rw [outsAt0_C m c t h0 h4]
  dsimp only
  rw [sC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).2]
  exact oC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h4) (iblk m c 0 t) (iblk m c 1 t) (iblk m c 2 t) (iblk m c 3 t) (iblk m c 4 t) (iblk m c 5 t) (outsAt0 m c (t.val - 1) (Nat.lt_of_le_of_lt (Nat.sub_le _ _) t.isLt)).2

end generic

section ideal
variable (m : (ℓ : Loc nD τ sig) → Buf (Elt Ideal) ℓ)

/-- The blocks the windows hold at a grid position, and the arrays the launch finds, each at its literal type. -/
abbrev ablk (c : Dev nD) (t : Fin cfg0.N) : S2048x2048.Idx → EReal := iblk m c 0 t
abbrev xblk (c : Dev nD) (t : Fin cfg0.N) : S2048x128.Idx → EReal := iblk m c 1 t
abbrev w1blk (c : Dev nD) (t : Fin cfg0.N) : S128x128.Idx → EReal := iblk m c 2 t
abbrev b1blk (c : Dev nD) (t : Fin cfg0.N) : S1x128.Idx → EReal := iblk m c 3 t
abbrev w2blk (c : Dev nD) (t : Fin cfg0.N) : S128x128.Idx → EReal := iblk m c 4 t
abbrev b2blk (c : Dev nD) (t : Fin cfg0.N) : S1x128.Idx → EReal := iblk m c 5 t
abbrev Aarr (c : Dev nD) : S10240x10240.Idx → EReal := V m c main_v38
abbrev Xarr (c : Dev nD) : S10240x128.Idx → EReal := V m c main_v39
abbrev W1arr (c : Dev nD) : S128x128.Idx → EReal := V m c main_v40
abbrev B1arr (c : Dev nD) : S1x128.Idx → EReal := V m c main_v42
abbrev W2arr (c : Dev nD) : S128x128.Idx → EReal := V m c main_v41
abbrev B2arr (c : Dev nD) : S1x128.Idx → EReal := V m c main_v43

/-- The printed index maps over the 5 × 5 grid (position `t` is row block `t / 5`, column block `t % 5`). -/
theorem idx_facts : ∀ t : Fin cfg0.N,
    win0_0.index t (0 : Fin 2) = t.val / 5 ∧ win0_0.index t (1 : Fin 2) = t.val % 5
    ∧ win0_1.index t (0 : Fin 2) = t.val % 5 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 5 ∧ win0_6.index t (1 : Fin 2) = 0 :=
  (by decide +kernel : ∀ t : Fin grid0.N, _)

/-- The adjacency block at position `t`, entry (r, j): the array at (2048·(t/5) + r, 2048·(t%5) + j). -/
theorem iblk0_apply (c : Dev nD) (t : Fin cfg0.N) (r j : Fin 2048) (R C : Fin 10240)
    (hR : R.val = 2048 * (t.val / 5) + r.val) (hC : C.val = 2048 * (t.val % 5) + j.val) :
    ablk m c t (ix2 r j) = Aarr m c (ix2 R C) := by
  obtain ⟨e0, e1, -⟩ := idx_facts t
  show iblk m c 0 t (ix2 r j) = V m c main_v38 (ix2 R C)
  unfold iblk
  rw [View.read_apply]
  show V m c main_v38 _ = V m c main_v38 _
  congr 1
  funext a
  apply Fin.ext
  match a with
  | ⟨0, _⟩ => show win0_0.index t (0 : Fin 2) * 2048 + 1 * r.val = R.val; rw [e0, hR]; omega
  | ⟨1, _⟩ => show win0_0.index t (1 : Fin 2) * 2048 + 1 * j.val = C.val; rw [e1, hC]; omega

/-- The feature block at position `t`, entry (j, d): the padded features at (2048·(t%5) + j, d). -/
theorem iblk1_apply (c : Dev nD) (t : Fin cfg0.N) (j : Fin 2048) (d : Fin 128) (C : Fin 10240)
    (hC : C.val = 2048 * (t.val % 5) + j.val) :
    xblk m c t (ix2 j d) = Xarr m c (ix2 C d) := by
  obtain ⟨-, -, e0, e1, -⟩ := idx_facts t
  show iblk m c 1 t (ix2 j d) = V m c main_v39 (ix2 C d)
  unfold iblk
  rw [View.read_apply]
  show V m c main_v39 _ = V m c main_v39 _
  congr 1
  funext a
  apply Fin.ext
  match a with
  | ⟨0, _⟩ => show win0_1.index t (0 : Fin 2) * 2048 + 1 * j.val = C.val; rw [e0, hC]; omega
  | ⟨1, _⟩ => show win0_1.index t (1 : Fin 2) * 128 + 1 * d.val = d.val; rw [e1]; omega

/-- The weight and bias windows hold their whole arrays at every position. -/
theorem iblk2_apply (c : Dev nD) (t : Fin cfg0.N) (a b : Fin 128) :
    w1blk m c t (ix2 a b) = W1arr m c (ix2 a b) := by
  obtain ⟨-, -, -, -, e0, e1, -⟩ := idx_facts t
  show iblk m c 2 t (ix2 a b) = V m c main_v40 (ix2 a b)
  unfold iblk
  rw [View.read_apply]
  show V m c main_v40 _ = V m c main_v40 _
  congr 1
  funext x
  apply Fin.ext
  match x with
  | ⟨0, _⟩ => show win0_2.index t (0 : Fin 2) * 128 + 1 * a.val = a.val; rw [e0]; omega
  | ⟨1, _⟩ => show win0_2.index t (1 : Fin 2) * 128 + 1 * b.val = b.val; rw [e1]; omega

theorem iblk3_apply (c : Dev nD) (t : Fin cfg0.N) (b : Fin 128) :
    b1blk m c t (ix2 (0 : Fin 1) b) = B1arr m c (ix2 (0 : Fin 1) b) := by
  obtain ⟨-, -, -, -, -, -, e0, e1, -⟩ := idx_facts t
  show iblk m c 3 t (ix2 (0 : Fin 1) b) = V m c main_v42 (ix2 (0 : Fin 1) b)
  unfold iblk
  rw [View.read_apply]
  show V m c main_v42 _ = V m c main_v42 _
  congr 1
  funext x
  apply Fin.ext
  match x with
  | ⟨0, _⟩ => show win0_3.index t (0 : Fin 2) * 1 + 1 * 0 = 0; rw [e0]
  | ⟨1, _⟩ => show win0_3.index t (1 : Fin 2) * 128 + 1 * b.val = b.val; rw [e1]; omega

theorem iblk4_apply (c : Dev nD) (t : Fin cfg0.N) (a b : Fin 128) :
    w2blk m c t (ix2 a b) = W2arr m c (ix2 a b) := by
  obtain ⟨-, -, -, -, -, -, -, -, e0, e1, -⟩ := idx_facts t
  show iblk m c 4 t (ix2 a b) = V m c main_v41 (ix2 a b)
  unfold iblk
  rw [View.read_apply]
  show V m c main_v41 _ = V m c main_v41 _
  congr 1
  funext x
  apply Fin.ext
  match x with
  | ⟨0, _⟩ => show win0_4.index t (0 : Fin 2) * 128 + 1 * a.val = a.val; rw [e0]; omega
  | ⟨1, _⟩ => show win0_4.index t (1 : Fin 2) * 128 + 1 * b.val = b.val; rw [e1]; omega

theorem iblk5_apply (c : Dev nD) (t : Fin cfg0.N) (b : Fin 128) :
    b2blk m c t (ix2 (0 : Fin 1) b) = B2arr m c (ix2 (0 : Fin 1) b) := by
  obtain ⟨-, -, -, -, -, -, -, -, -, -, e0, e1, -⟩ := idx_facts t
  show iblk m c 5 t (ix2 (0 : Fin 1) b) = V m c main_v43 (ix2 (0 : Fin 1) b)
  unfold iblk
  rw [View.read_apply]
  show V m c main_v43 _ = V m c main_v43 _
  congr 1
  funext x
  apply Fin.ext
  match x with
  | ⟨0, _⟩ => show win0_5.index t (0 : Fin 2) * 1 + 1 * 0 = 0; rw [e0]
  | ⟨1, _⟩ => show win0_5.index t (1 : Fin 2) * 128 + 1 * b.val = b.val; rw [e1]; omega

end ideal

section ideal2
variable (m : (ℓ : Loc nD τ sig) → Buf (Elt Ideal) ℓ)

/-- The product of the two blocks the windows hold at grid position `n` (zero past the grid). -/
def blockProd (c : Dev nD) (n : ℕ) : S2048x128.Idx → EReal := fun y =>
  if h : n < cfg0.N then
    ∑ j : Fin 2048, ablk m c ⟨n, h⟩ (ix2 ⟨(y 0).val, idx2_lt0 y⟩ j) * xblk m c ⟨n, h⟩ (ix2 j ⟨(y 1).val, idx2_lt1 y⟩)
  else 0

/-- The accumulator after position `t` is the sum of the block products of its row block up to `t`. -/
theorem acc_fold (c : Dev nD) (t : Fin cfg0.N) (y : S2048x128.Idx) :
    acc m c t.val t.isLt y = 0 + ∑ s ∈ Finset.range (t.val % 5 + 1), blockProd m c (5 * (t.val / 5) + s) y := by
  have hN : cfg0.N = 25 := N_0
  have ht := t.isLt
  have h' : 5 * (t.val / 5) + t.val % 5 < cfg0.N := by omega
  rw [Pipeline.eq_accAt_of_mod (acc m c) 5
    (fun n h => k0_pay2 (k0_pay1 (F := Ideal)) (iblk m c 0 ⟨n, h⟩) (iblk m c 1 ⟨n, h⟩))
    (fun n h v => k0_pay2 v (iblk m c 0 ⟨n, h⟩) (iblk m c 1 ⟨n, h⟩))
    (fun n h h0 => acc_reset m c n h h0) (fun n h h0 => acc_step m c n h h0) (by decide) t.val t.isLt h']
  refine Pipeline.accAt_add_apply _ _ (fun _ => (0 : EReal)) (blockProd m c) (5 * (t.val / 5)) 4 ?_ ?_ (t.val % 5) (by omega) h' y
  · intro h i
    obtain ⟨r, d, rfl⟩ : ∃ (r : Fin 2048) (d : Fin 128), i = ix2 r d := ⟨i 0, i 1, eq_ix2 i⟩
    refine (pay2_apply _ (ablk m c ⟨_, h⟩) (xblk m c ⟨_, h⟩) r d).trans ?_
    rw [pay1_apply]
    unfold blockProd
    rw [dif_pos h]
  · intro n h v i _ _
    obtain ⟨r, d, rfl⟩ : ∃ (r : Fin 2048) (d : Fin 128), i = ix2 r d := ⟨i 0, i 1, eq_ix2 i⟩
    refine (pay2_apply v (ablk m c ⟨n, h⟩) (xblk m c ⟨n, h⟩) r d).trans ?_
    unfold blockProd
    rw [dif_pos h]

/-- Row `R` of (adjacency operand) · (feature operand), column `k`, summed block by block. -/
def hK (c : Dev nD) (R : Fin 10240) (k : Fin 128) : EReal :=
  0 + ∑ s : Fin 5, ∑ j : Fin 2048,
    Aarr m c (ix2 R ⟨2048 * s.val + j.val, by omega⟩) * Xarr m c (ix2 ⟨2048 * s.val + j.val, by omega⟩ k)

/-- The finished accumulator of a row block, at an entry. -/
theorem acc_apply (c : Dev nD) (t : Fin cfg0.N) (h4 : t.val % 5 = 4) (r : Fin 2048) (k : Fin 128) (R : Fin 10240)
    (hR : R.val = 2048 * (t.val / 5) + r.val) :
    acc m c t.val t.isLt (ix2 r k) = hK m c R k := by
  have hN : cfg0.N = 25 := N_0
  have ht := t.isLt
  rw [acc_fold, h4]
  unfold hK
  congr 1
  rw [Finset.sum_range]
  refine Finset.sum_congr rfl fun s _ => ?_
  have hs := s.isLt
  have hn : 5 * (t.val / 5) + s.val < cfg0.N := by omega
  unfold blockProd
  rw [dif_pos hn]
  refine Finset.sum_congr rfl fun j _ => ?_
  rw [iblk0_apply m c ⟨_, hn⟩ r j R ⟨2048 * s.val + j.val, by omega⟩ (by show R.val = 2048 * ((5 * (t.val / 5) + s.val) / 5) + r.val; omega)
      (by show 2048 * s.val + j.val = 2048 * ((5 * (t.val / 5) + s.val) % 5) + j.val; omega),
    iblk1_apply m c ⟨_, hn⟩ j k ⟨2048 * s.val + j.val, by omega⟩ (by show 2048 * s.val + j.val = 2048 * ((5 * (t.val / 5) + s.val) % 5) + j.val; omega)]

end ideal2

end Cert.KernelIdeal.KValue

end
-- ==== Proof.KFinal.lean ====
/-
  The kernel's output array after the whole run, and the program's result.

  Only the last column block of a row block stores into the output window, and only then is the block written back:
  row block i's rows 2048·i … 2048·i + 2047, each the two dense layers of the finished accumulator's row.  These
  blocks tile the [10240, 128] array, so it ends holding one function of the launch's operand arrays; the host slice
  after the launch keeps its first 10000 rows.
-/
import proofs.«411089_j89635967467763_1_alg».proof.Proof.KAcc
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem

section ideal3
variable (m : (ℓ : Loc nD τ sig) → Buf (Elt Ideal) ℓ) (ρ : Dev nD → PrngReg)

/-- Row `R`, column `d` of the output array: the two dense layers of row `R` of the accumulated product. -/
def outRow (c : Dev nD) (R : Fin 10240) (d : Fin 128) : EReal :=
  (∑ k : Fin 128, max ((∑ k' : Fin 128, hK m c R k' * W1arr m c (ix2 k' k)) + B1arr m c (ix2 (0 : Fin 1) k)) 0
      * W2arr m c (ix2 k d)) + B2arr m c (ix2 (0 : Fin 1) d)

/-- The whole [10240, 128] output array after the run. -/
def G6 (c : Dev nD) : S10240x128.Idx → EReal := fun i => outRow m c ⟨(i 0).val, idx2_lt0 i⟩ ⟨(i 1).val, idx2_lt1 i⟩

/-- What the last column block's run stores, at an entry. -/
theorem out_block_apply (c : Dev nD) (t : Fin cfg0.N) (h4 : t.val % 5 = 4) (r : Fin 2048) (d : Fin 128) (R : Fin 10240)
    (hR : R.val = 2048 * (t.val / 5) + r.val) :
    k0_pay3 (F := Ideal) (acc m c t.val t.isLt) (w1blk m c t) (b1blk m c t) (w2blk m c t) (b2blk m c t) (ix2 r d)
      = outRow m c R d := by
  refine (pay3_apply _ (w1blk m c t) (b1blk m c t) (w2blk m c t) (b2blk m c t) r d).trans ?_
  unfold outRow
  simp only [acc_apply m c t h4 r _ R hR, iblk2_apply, iblk3_apply, iblk4_apply, iblk5_apply]

/-- The stored block's entry (r, d) is `G6` at the array index the block puts it at. -/
theorem flushed_at (c : Dev nD) (t : Fin cfg0.N) (h4 : t.val % 5 = 4) (r : Fin 2048) (d : Fin 128) (i : S10240x128.Idx)
    (h0 : (i 0).val = 2048 * (t.val / 5) + r.val) (h1 : (i 1).val = d.val) :
    k0_pay3 (F := Ideal) (acc m c t.val t.isLt) (w1blk m c t) (b1blk m c t) (w2blk m c t) (b2blk m c t) (ix2 r d)
      = G6 m c i := by
  rw [out_block_apply m c t h4 r d ⟨(i 0).val, idx2_lt0 i⟩ h0]
  unfold G6
  congr 1
  exact Fin.ext h1.symm

/-- WHAT A FLUSHING POSITION WRITES BACK is its block of `G6`. -/
theorem flushed_eq (c : Dev nD) (t : Fin cfg0.N) (hf : (cfg0.win 6).flush t = true) :
    (dats m 0 c).flushed 6 t = ((cfg0.win 6).blk t).view.read (Elt Ideal) (G6 m c) := by
  have h4 : t.val % 5 = 4 := (flush0_6 t).mp hf
  obtain ⟨-, -, -, -, -, -, -, -, -, -, -, -, e0, e1⟩ := idx_facts t
  show (cfg0.win 6).cut (grid0.coords t) ((dats m 0 c).after 6 t) = _
  rw [after0_6, out_flush m c t h4]
  funext y
  obtain ⟨r, d, rfl⟩ : ∃ (r : Fin 2048) (d : Fin 128), y = ix2 r d := ⟨y 0, y 1, eq_ix2 y⟩
  show k0_pay3 (F := Ideal) (acc m c t.val t.isLt) (w1blk m c t) (b1blk m c t) (w2blk m c t) (b2blk m c t) (ix2 r d)
    = G6 m c (((cfg0.win 6).blk t).view.emb (ix2 r d))
  refine flushed_at m c t h4 r d _ ?_ ?_
  · show win0_6.index t (0 : Fin 2) * 2048 + 1 * r.val = 2048 * (t.val / 5) + r.val
    rw [e0]; omega
  · show win0_6.index t (1 : Fin 2) * 128 + 1 * d.val = d.val
    rw [e1]; omega

/-- An index of the array is in position `t`'s block iff each coordinate is in the block's range on its axis. -/
theorem mem_blk6 (t : Fin cfg0.N) (i : S10240x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v44).slice (win0_6.rect t)).set ↔ _
  rw [View.set_slice_whole, Rect.mem_set_unit]
  exact Iff.rfl

/-- Every row lies in the block its row block's last position writes back. -/
theorem cover6 (i : S10240x128.Idx) : ∃ t : Fin cfg0.N, (cfg0.win 6).flush t = true ∧ i ∈ ((cfg0.win 6).blk t).view.set := by
  have hN : cfg0.N = 25 := N_0
  have hi0 : (i 0).val < 10240 := (i 0).isLt
  have hi1 : (i 1).val < 128 := (i 1).isLt
  have hlt : 5 * ((i 0).val / 2048) + 4 < cfg0.N := by omega
  obtain ⟨-, -, -, -, -, -, -, -, -, -, -, -, e0, e1⟩ := idx_facts ⟨5 * ((i 0).val / 2048) + 4, hlt⟩
  refine ⟨⟨5 * ((i 0).val / 2048) + 4, hlt⟩, (flush0_6 _).mpr (by show (5 * ((i 0).val / 2048) + 4) % 5 = 4; omega), ?_⟩
  rw [mem_blk6]
  intro a
  match a with
  | ⟨0, _⟩ =>
    show win0_6.index ⟨5 * ((i 0).val / 2048) + 4, hlt⟩ (0 : Fin 2) * 2048 ≤ (i 0).val ∧ (i 0).val < win0_6.index ⟨5 * ((i 0).val / 2048) + 4, hlt⟩ (0 : Fin 2) * 2048 + 2048
    rw [e0]
    show (5 * ((i 0).val / 2048) + 4) / 5 * 2048 ≤ (i 0).val ∧ (i 0).val < (5 * ((i 0).val / 2048) + 4) / 5 * 2048 + 2048
    omega
  | ⟨1, _⟩ =>
    show win0_6.index ⟨5 * ((i 0).val / 2048) + 4, hlt⟩ (1 : Fin 2) * 128 ≤ (i 1).val ∧ (i 1).val < win0_6.index ⟨5 * ((i 0).val / 2048) + 4, hlt⟩ (1 : Fin 2) * 128 + 128
    rw [e1]; omega

/-- So the output array ends holding `G6`. -/
theorem final6 (c : Dev nD) : (dats m 0 c).arrAt 6 cfg0.N = G6 m c :=
  (dats m 0 c).arrAt_eq_of_cover 6 (G6 m c) (flushed_eq m c) cover6

end ideal3

section tail
variable (m : (ℓ : Loc nD τ sig) → Buf (Elt Ideal) ℓ) (ρ : Dev nD → PrngReg)

/-- The program's result: the first 10000 rows of the output array. -/
def result (c : Dev nD) : S10000x128.Idx → EReal := fun i =>
  outRow m c ⟨(i 0).val, by have := idx2_lt0 i; omega⟩ ⟨(i 1).val, idx2_lt1 i⟩

/-- The slice after the launch reads rows 0 … 9999 of what the launch left. -/
theorem tail_eq (c : Dev nD) :
    Pipeline.afterTail₀ cfgs (dats m) 0 (V0 m) [hostOps1] c main_v45 = result m c := by
  unfold Pipeline.afterTail₀
  show StableHlo.after hostOps1 _ (Proc.devRef .tc main_v45) = _
  after_results
  have hw : Pipeline.withArrays (cfgs 0).spec c (V0 m c) (fun w => (dats m 0 c).arrAt w (cfgs 0).N) (Proc.devRef .tc main_v44)
      = (dats m 0 c).arrAt 6 cfg0.N :=
    Pipeline.withArrays_arr (cfgs 0).spec launch0.win.arr_inj c (V0 m c) (fun w => (dats m 0 c).arrAt w (cfgs 0).N) 6
  rw [hw, final6]
  funext i
  unfold extractStridedSlice result G6
  congr 1
  · apply Fin.ext; show 0 + (i 0).val = (i 0).val; omega
  · apply Fin.ext; show 0 + (i 1).val = (i 1).val; omega

/-- The run, read: the result array at `result`, the arguments unchanged. -/
theorem run : θ_run defs (onTc (τ := τ) (main (F := Ideal))) ⟨m, fun _ => 0, ρ⟩ fun r => ∀ c : Dev nD,
      r.2.mem ((c.tc : Thread nD τ).loc main_v45) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(((h c).2 main_v45 (Pipeline.mem_restRefs_of main_v45 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end tail

end Cert.KernelIdeal.KValue

end
-- ==== Proof.Spec.lean ====
/-
  The graph-isomorphism layer as one function of its arguments, on the extended reals.

  Node features `x : [10000, 128]`, an edge list `ei : [2, 640000]` (row 0 the sources, row 1 the targets),
  two dense layers.  The layer computes, for node `i`,
      out_i = max(h_i · W1 + b1, 0) · W2 + b2,     h_i = x_i + Σ_{e : target e = i} x_{source e}.
  Both programs are compared with this one function: the reference sums the gathered rows edge by edge,
  the kernel multiplies by the adjacency-count matrix (count of edges j → i, plus one on the diagonal),
  zero-padded to 10240 and cut into 5 × 5 blocks of 2048.
-/
import Idealize.ShloMosaic.PureOps.Ideal
import Idealize.ShloMosaic.Lib.ValueIdx

noncomputable section

namespace Cert.Gin

open Idealize.ShloMosaic Idealize.ShloMosaic.ValueIdx

/-- The shapes of the arguments. -/
abbrev SX : Shape := ⟨2, ![10000, 128]⟩
abbrev SE : Shape := ⟨2, ![2, 640000]⟩
abbrev SW : Shape := ⟨2, ![128, 128]⟩
abbrev SB : Shape := ⟨1, ![128]⟩

/-- Every entry of the edge list names a node: `0 ≤ ei < 10000`, read signed. -/
def InRange (ei : IVec SE 32) : Prop := ∀ j : SE.Idx, 0 ≤ (ei j).toInt ∧ (ei j).toInt < 10000

/-- The node that row `r` of the edge list (0: source, 1: target) names for edge `e`
    (clamped, so that it is total; on an in-range edge list the clamp does nothing). -/
def node (ei : IVec SE 32) (r : Fin 2) (e : Fin 640000) : Fin 10000 :=
  ⟨min (ei (ix2 r e)).toInt.toNat 9999, by omega⟩

/-- `h_i = (Σ_{e : target e = i} x_{source e}) + x_i`, feature by feature. -/
def hpre (x : SX.Idx → EReal) (ei : IVec SE 32) : SX.Idx → EReal := fun i =>
  (∑ e : Fin 640000, if (node ei 1 e).val = (i 0).val then x (ix2 (node ei 0 e) ⟨(i 1).val, idx2_lt1 i⟩) else 0) + x i

/-- One dense layer: `(h · W + b)` at row `i 0`, column `i 1`. -/
def lin (h : SX.Idx → EReal) (W : SW.Idx → EReal) (b : SB.Idx → EReal) : SX.Idx → EReal := fun i =>
  (∑ k : Fin 128, h (ix2 ⟨(i 0).val, idx2_lt0 i⟩ k) * W (ix2 k ⟨(i 1).val, idx2_lt1 i⟩)) + b (ix1 ⟨(i 1).val, idx2_lt1 i⟩)

/-- The two layers over any aggregated features `h`. -/
def mlp (h : SX.Idx → EReal) (W1 : SW.Idx → EReal) (b1 : SB.Idx → EReal) (W2 : SW.Idx → EReal) (b2 : SB.Idx → EReal) :
    SX.Idx → EReal :=
  lin (fun i => max (lin h W1 b1 i) 0) W2 b2

/-- The layer's result. -/
def out (x : SX.Idx → EReal) (ei : IVec SE 32) (W1 : SW.Idx → EReal) (b1 : SB.Idx → EReal) (W2 : SW.Idx → EReal)
    (b2 : SB.Idx → EReal) : SX.Idx → EReal :=
  mlp (hpre x ei) W1 b1 W2 b2

/-- The adjacency-count matrix the kernel multiplies by, zero outside the 10000 × 10000 corner:
    the number of edges `q → r`, plus one on the diagonal. -/
def adj (ei : IVec SE 32) (r q : ℕ) : EReal :=
  if r < 10000 ∧ q < 10000 then
    (∑ e : Fin 640000, if (node ei 1 e).val = r ∧ (node ei 0 e).val = q then (1 : EReal) else 0) + (if r = q then 1 else 0)
  else 0

/-- The features, zero below row 10000. -/
def xpad (x : SX.Idx → EReal) (q : ℕ) (d : Fin 128) : EReal :=
  if h : q < 10000 then x (ix2 ⟨q, h⟩ d) else 0

end Cert.Gin

end
-- ==== Proof.KHost.lean ====
/-
  What the kernel's launch finds in its operand arrays besides the adjacency counts: the features zero-padded to
  10240 rows, the two weight matrices as given, and each bias as one row.
-/
import proofs.«411089_j89635967467763_1_alg».proof.Proof.Gen.KernelIdeal.Frame
import proofs.«411089_j89635967467763_1_alg».proof.Proof.Spec
import Idealize.ShloMosaic.Lib.KernelVsHost
import Idealize.ShloMosaic.Lib.ValueLayout

noncomputable section

namespace Cert.KernelIdeal.HostValue

open Cert.KernelIdeal Cert.KernelIdeal.Gen Idealize.ShloMosaic Idealize.ShloMosaic.ValueIdx Idealize.ShloMosaic.TcCoe Idealize.SL.Sem

/-- A `[10000, 128]` array padded with 240 rows below (no low padding, no interior padding, nothing on the columns)
    reads, at row `q`, the operand while `q < 10000`, and the padding value from row 10000 on: the row coordinate
    `q = 0 + k · 1` names an operand row exactly when `k = q < 10000`. -/
theorem pad_rows_apply {α : Type} (x : (⟨2, ![10000, 128]⟩ : Shape).Idx → α) {u : Shape} (v : u.Idx → α)
    (h : (⟨2, ![10000, 128]⟩ : Shape).Pads ![0, 0] ![240, 0] ![0, 0] ⟨2, ![10240, 128]⟩) (hu : 0 < u.numel)
    (q : Fin 10240) (d : Fin 128) :
    pad ⟨2, ![10240, 128]⟩ ![0, 0] ![240, 0] ![0, 0] x v h hu (ix2 q d)
      = if hq : q.val < 10000 then x (ix2 ⟨q.val, hq⟩ d) else v (Shape.Idx.first hu) := by
  split
  · rename_i hq
    refine pad_apply_of_inside _ _ _ x v h hu _ (ix2 ⟨q.val, hq⟩ d) (fun a => ?_)
    fin_cases a
    · show q.val = 0 + q.val * (0 + 1)
      omega
    · show d.val = 0 + d.val * (0 + 1)
      omega
  · rename_i hq
    refine pad_apply_of_not_inside _ _ _ x v h hu _ (0 : Fin 2) (fun hh => hq ?_)
    have h2 : (q.val - 0) / (0 + 1) < 10000 := hh.2.2
    omega

variable (m : (ℓ : Loc nD τ sig) → Buf (Elt Ideal) ℓ)

/-- Operand 1: the padded features. The array is the features padded below with the integer zero converted to a
    float, then narrowed to the shorter float type; on the extended reals the narrowing changes nothing and the
    converted zero is `0`. -/
theorem V_xpad (c : Dev nD) (q : Fin 10240) (d : Fin 128) :
    (V m c main_v39 : S10240x128.Idx → EReal) (ix2 q d) = Cert.Gin.xpad (m ((c : Thread nD τ).loc main_arg0)) q.val d := by
  have e : (V m c main_v39 : S10240x128.Idx → EReal)
      = truncf .bf16 (pad S10240x128 ![0, 0] ![240, 0] ![0, 0] (m ((c : Thread nD τ).loc main_arg0))
          (sitofp (F := Ideal) .f32 (constantI S_ 32 0#32)) pads_S10000x128_S10240x128_02400_000 h_S_) bitsLt_bf16_f32 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [e, truncf_apply, pad_rows_apply]
  unfold Cert.Gin.xpad
  split
  · rfl
  · exact sitofp_zero (φ := .f32)

/-- Operands 2 and 4: the weights. Each is its argument narrowed to the shorter float type, the identity on the
    extended reals. -/
theorem V_w1 (c : Dev nD) : (V m c main_v40 : S128x128.Idx → EReal) = m ((c : Thread nD τ).loc main_arg2) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl
theorem V_w2 (c : Dev nD) : (V m c main_v41 : S128x128.Idx → EReal) = m ((c : Thread nD τ).loc main_arg4) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Operands 3 and 5: the biases as one row. A `[128]` array recast as `[1, 128]` keeps its row-major order, so
    entry `(0, d)` is entry `d`. -/
theorem V_b1 (c : Dev nD) (d : Fin 128) :
    (V m c main_v42 : S1x128.Idx → EReal) (ix2 (0 : Fin 1) d) = m ((c : Thread nD τ).loc main_arg3) (ix1 d) := by
  have e : (V m c main_v42 : S1x128.Idx → EReal)
      = shapeCast S1x128 (m ((c : Thread nD τ).loc main_arg3)) shapeCasts_S128_S1x128 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  exact shapeCast_a_1a_apply _ _ 0 d
theorem V_b2 (c : Dev nD) (d : Fin 128) :
    (V m c main_v43 : S1x128.Idx → EReal) (ix2 (0 : Fin 1) d) = m ((c : Thread nD τ).loc main_arg5) (ix1 d) := by
  have e : (V m c main_v43 : S1x128.Idx → EReal)
      = shapeCast S1x128 (m ((c : Thread nD τ).loc main_arg5)) shapeCasts_S128_S1x128 := by
    dsimp only [Gen.V, Gen.V0]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  exact shapeCast_a_1a_apply _ _ 0 d

end Cert.KernelIdeal.HostValue

end
-- ==== Proof.KHostAdj.lean ====
/-
  What the kernel's launch finds in its first operand array: the adjacency-count matrix — every edge scattered as a
  one at (target, source), then a one on every diagonal entry — zero-padded to 10240 × 10240.

  The road: a point scatter into a matrix lands update `e` at the entry its index row names (read signed, nothing
  clamped), so the accumulating scatter read at `(r, q)` is the entry plus the updates whose index row is `(r, q)`.
  The edge table's rows are (target, source) once the wrap of negative indices is seen to do nothing on an in-range
  edge list; the diagonal table's rows are `(n, n)`.  The padding value is the integer zero converted, and the
  conversion to bf16 is the identity at the ideal values.
-/
import proofs.«411089_j89635967467763_1_alg».proof.Proof.Gen.KernelIdeal.Frame
import proofs.«411089_j89635967467763_1_alg».proof.Proof.Spec
import Idealize.ShloMosaic.Lib.Pipeline.Value
import Idealize.ShloMosaic.Lib.KernelVsHost
import Idealize.ShloMosaic.Lib.ValueIdxRank1
import Idealize.ShloMosaic.Lib.WordArith

noncomputable section

namespace Cert.KernelIdeal.HostValue

open Cert.KernelIdeal Cert.KernelIdeal.Gen Idealize.ShloMosaic Idealize.ShloMosaic.ValueIdx Idealize.ShloMosaic.TcCoe Idealize.SL.Sem

namespace Adj

section PointScatter

variable {M N : ℕ} (wf : ScatterDims.WF ⟨2, ![M, M]⟩ ⟨2, ![N, 2]⟩ ⟨1, ![N]⟩ [] [0, 1] [0, 1] 1)

/-- The dimension numbers of a point scatter into a matrix: each update is one scalar, its index vector a row of the
    index table. -/
abbrev ptDims : ScatterDims ⟨2, ![M, M]⟩ ⟨2, ![N, 2]⟩ ⟨1, ![N]⟩ := ⟨[], [0, 1], [0, 1], 1, wf⟩

theorem ix1_val {n : ℕ} (e : Fin n) (x : Fin 1) : (ix1 e x).val = e.val := by
  have hx : x = 0 := Subsingleton.elim _ _
  subst hx
  rfl

theorem ptDims_window (j : (⟨1, ![N]⟩ : Shape).Idx) (a : Fin 2) : (ptDims wf).window j a = 0 := by
  unfold ScatterDims.window
  have hk : (ptDims wf).sKept = [] := rfl
  rw [dif_neg]
  rw [hk]
  exact List.not_mem_nil

theorem idxOf_pair (a : Fin 2) : List.idxOf a ([0, 1] : List (Fin 2)) = a.val := by
  fin_cases a <;> rfl

theorem ptDims_start (idx : IVec ⟨2, ![N, 2]⟩ 32) (e : Fin N) (a : Fin 2) :
    (ptDims wf).start (ix1 e) idx a = (idx (ix2 e a)).toInt := by
  unfold ScatterDims.start
  have ha : a ∈ (ptDims wf).scatterDimsToOperandDims := by
    show a ∈ ([0, 1] : List (Fin 2))
    fin_cases a <;> decide
  rw [dif_pos ha]
  congr 2
  funext b
  apply Fin.ext
  unfold ScatterDims.siIdx
  match b with
  | ⟨0, _⟩ =>
    rw [dif_neg (show ¬ ((0 : ℕ) = 1) from Nat.zero_ne_one)]
    unfold ScatterDims.siCoord
    show (ix1 e _).val = e.val
    exact ix1_val e _
  | ⟨1, _⟩ =>
    rw [dif_pos (show (1 : ℕ) = 1 from rfl)]
    show List.idxOf a ([0, 1] : List (Fin 2)) = a.val
    exact idxOf_pair a

/-- A point scatter's update `e` lands at entry `(r, q)` exactly when row `e` of the index table, read signed, is
    `(r, q)`: nothing is clamped, and an index vector outside the matrix lands nowhere. -/
theorem ptDims_resultIdx (idx : IVec ⟨2, ![N, 2]⟩ 32) (e : Fin N) (r q : Fin M) :
    (ptDims wf).resultIdx? (ix1 e) idx = some (ix2 r q) ↔
      (idx (ix2 e 0)).toInt = (r.val : ℤ) ∧ (idx (ix2 e 1)).toInt = (q.val : ℤ) := by
  have s0 := ptDims_start wf idx e 0
  have s1 := ptDims_start wf idx e 1
  have w0 := ptDims_window wf (ix1 e) 0
  have w1 := ptDims_window wf (ix1 e) 1
  unfold ScatterDims.resultIdx?
  split
  · next h =>
    have b0 := h 0
    have b1 := h 1
    rw [s0, w0] at b0
    rw [s1, w1] at b1
    rw [Option.some.injEq]
    constructor
    · intro hf
      have h0 := congrArg Fin.val (congrFun hf 0)
      have h1 := congrArg Fin.val (congrFun hf 1)
      change ((ptDims wf).start (ix1 e) idx 0 + ((ptDims wf).window (ix1 e) 0 : ℕ)).toNat = r.val at h0
      change ((ptDims wf).start (ix1 e) idx 1 + ((ptDims wf).window (ix1 e) 1 : ℕ)).toNat = q.val at h1
      rw [s0, w0] at h0
      rw [s1, w1] at h1
      omega
    · rintro ⟨h0, h1⟩
      funext a
      apply Fin.ext
      match a with
      | ⟨0, _⟩ =>
        show ((ptDims wf).start (ix1 e) idx 0 + ((ptDims wf).window (ix1 e) 0 : ℕ)).toNat = r.val
        rw [s0, w0]; omega
      | ⟨1, _⟩ =>
        show ((ptDims wf).start (ix1 e) idx 1 + ((ptDims wf).window (ix1 e) 1 : ℕ)).toNat = q.val
        rw [s1, w1]; omega
  · next h =>
    constructor
    · intro hf; cases hf
    · rintro ⟨h0, h1⟩
      exfalso
      apply h
      intro a
      match a with
      | ⟨0, _⟩ =>
        show 0 ≤ (ptDims wf).start (ix1 e) idx 0 + ((ptDims wf).window (ix1 e) 0 : ℕ) ∧
          (ptDims wf).start (ix1 e) idx 0 + ((ptDims wf).window (ix1 e) 0 : ℕ) < (M : ℤ)
        rw [s0, w0]; have := r.isLt; omega
      | ⟨1, _⟩ =>
        show 0 ≤ (ptDims wf).start (ix1 e) idx 1 + ((ptDims wf).window (ix1 e) 1 : ℕ) ∧
          (ptDims wf).start (ix1 e) idx 1 + ((ptDims wf).window (ix1 e) 1 : ℕ) < (M : ℤ)
        rw [s1, w1]; have := q.isLt; omega

/-- A point scatter of `upd` into `x`, read at entry `(r, q)`: the entry plus the updates whose index row is `(r, q)`. -/
theorem ptScatter_apply (x : (⟨2, ![M, M]⟩ : Shape).Idx → EReal) (idx : IVec ⟨2, ![N, 2]⟩ 32)
    (upd : (⟨1, ![N]⟩ : Shape).Idx → EReal) (r q : Fin M) :
    Ideal.hostScatterAdd (ptDims wf) x idx upd (ix2 r q)
      = x (ix2 r q) + ∑ e : Fin N,
          if (idx (ix2 e 0)).toInt = (r.val : ℤ) ∧ (idx (ix2 e 1)).toInt = (q.val : ℤ) then upd (ix1 e) else 0 := by
  unfold Ideal.hostScatterAdd
  congr 1
  rw [Finset.sum_filter, ← Equiv.sum_comp (idxEquiv1 (n := N)).symm]
  refine Finset.sum_congr rfl fun e _ => ?_
  exact if_congr (ptDims_resultIdx wf idx e r q) rfl rfl

end PointScatter

section Layout

/-- The bits of the f32 constant one are the extended real one. -/
theorem ofBits_one_f32 : Ideal.ofBits .f32 0x3F800000#32 = 1 := by
  simp [Ideal.ofBits, Ideal.ieee]
  rw [← EReal.coe_mul]
  have h : (8388608 * ((2 : ℝ) ^ 23)⁻¹ : ℝ) = 1 := by norm_num
  rw [h]
  rfl

/-- A non-negative word is left alone by the wrap of negative indices. -/
theorem wrap_word (x : BitVec 32) (hx : 0 ≤ x.toInt) :
    Scalar.select (IntOp.cmpi .slt x 0#32) (IntOp.addi x 10000#32) x = x := by
  unfold Scalar.select
  rw [if_neg]
  intro h
  change BitVec.ofBool (x.slt 0#32) = 1#1 at h
  have h2 : x.slt 0#32 = true := by
    cases hb : x.slt 0#32
    · rw [hb] at h; exact absurd h (by decide)
    · rfl
  rw [BitVec.slt_iff_toInt_lt] at h2
  have : (0#32 : BitVec 32).toInt = 0 := by decide
  omega

variable {α : Type} {N : ℕ}

/-- Two vectors side by side as the columns of an `[N, 2]` table: column 0 reads the first. -/
theorem cols_apply_zero (a b : (⟨1, ![N]⟩ : Shape).Idx → α)
    (hb : (⟨1, ![N]⟩ : Shape).BroadcastsInDim ⟨2, ![N, 1]⟩ ![0])
    (hc : Shape.Concatenates [⟨2, ![N, 1]⟩, ⟨2, ![N, 1]⟩] ⟨2, ![N, 2]⟩ 1) (e : Fin N) :
    concatenate ⟨2, ![N, 2]⟩ 1 [⟨⟨2, ![N, 1]⟩, broadcastInDim ⟨2, ![N, 1]⟩ ![0] hb a⟩,
      ⟨⟨2, ![N, 1]⟩, broadcastInDim ⟨2, ![N, 1]⟩ ![0] hb b⟩] hc (ix2 e 0) = a (ix1 e) := by
  refine (concatenate_pair_apply_left 1 _ _ hc (ix2 e 0) rfl (ix2 e (0 : Fin 1)) (fun k => ?_)).trans ?_
  · match k with
    | ⟨0, _⟩ => rfl
    | ⟨1, _⟩ => rfl
  · refine broadcastInDim_apply _ _ _ _ (ix1 e) (fun k => ?_)
    match k with
    | ⟨0, _⟩ =>
      show e.val = if N = 1 then 0 else e.val
      have := e.isLt
      split <;> omega

/-- … and column 1 the second. -/
theorem cols_apply_one (a b : (⟨1, ![N]⟩ : Shape).Idx → α)
    (hb : (⟨1, ![N]⟩ : Shape).BroadcastsInDim ⟨2, ![N, 1]⟩ ![0])
    (hc : Shape.Concatenates [⟨2, ![N, 1]⟩, ⟨2, ![N, 1]⟩] ⟨2, ![N, 2]⟩ 1) (e : Fin N) :
    concatenate ⟨2, ![N, 2]⟩ 1 [⟨⟨2, ![N, 1]⟩, broadcastInDim ⟨2, ![N, 1]⟩ ![0] hb a⟩,
      ⟨⟨2, ![N, 1]⟩, broadcastInDim ⟨2, ![N, 1]⟩ ![0] hb b⟩] hc (ix2 e 1) = b (ix1 e) := by
  refine (concatenate_pair_apply_right 1 _ _ hc (ix2 e 1) rfl rfl (ix2 e (0 : Fin 1)) (fun k hk => ?_) ?_).trans ?_
  · match k with
    | ⟨0, _⟩ => rfl
    | ⟨1, _⟩ => exact absurd rfl hk
  · rfl
  · refine broadcastInDim_apply _ _ _ _ (ix1 e) (fun k => ?_)
    match k with
    | ⟨0, _⟩ =>
      show e.val = if N = 1 then 0 else e.val
      have := e.isLt
      split <;> omega

end Layout

/-- Row `k` of the edge list as a vector of 640000 words. -/
def rowE (ei : IVec S2x640000 32) (k : Fin 2) (h : S2x640000.Slices ![k.val, 0] S1x640000) : IVec S640000 32 :=
  fun i => shapeCast S640000 (extractStridedSlice S1x640000 ![k.val, 0] ei h) Facts₀.shapeCasts_S1x640000_S640000 i

/-- An index vector with its negative entries moved up by the node count, as an indexed update wraps them. -/
def wrapE (v : IVec S640000 32) : IVec S640000 32 :=
  select (cmpi .slt v (broadcastInDim S640000 ![] Facts₀.bcast_S_S640000 (constantI S_ 32 0#32)))
    (addi v (broadcastInDim S640000 ![] Facts₀.bcast_S_S640000 (constantI S_ 32 10000#32))) v

/-- The same over the node numbers. -/
def wrapN (v : IVec S10000 32) : IVec S10000 32 :=
  select (cmpi .slt v (broadcastInDim S10000 ![] Facts₀.bcast_S_S10000 (constantI S_ 32 0#32)))
    (addi v (broadcastInDim S10000 ![] Facts₀.bcast_S_S10000 (constantI S_ 32 10000#32))) v

/-- The index table of the edge scatter: row `e` is (target of `e`, source of `e`). -/
def edgeIdx (ei : IVec S2x640000 32) : IVec S640000x2 32 :=
  concatenate S640000x2 1
    [⟨S640000x1, broadcastInDim S640000x1 ![0] Facts₀.bcast_S640000_S640000x1_0 (wrapE (rowE ei 1 Facts₀.slices_S2x640000_S1x640000_1_0))⟩,
     ⟨S640000x1, broadcastInDim S640000x1 ![0] Facts₀.bcast_S640000_S640000x1_0 (wrapE (rowE ei 0 Facts₀.slices_S2x640000_S1x640000_0_0))⟩]
    Facts₀.concatenates_S640000x1_S640000x1_S640000x2_d1

/-- The index table of the diagonal scatter: row `n` is `(n, n)`. -/
def diagIdx : IVec S10000x2 32 :=
  concatenate S10000x2 1
    [⟨S10000x1, broadcastInDim S10000x1 ![0] Facts₀.bcast_S10000_S10000x1_0 (wrapN (iotaInDim S10000 32 0))⟩,
     ⟨S10000x1, broadcastInDim S10000x1 ![0] Facts₀.bcast_S10000_S10000x1_0 (wrapN (iotaInDim S10000 32 0))⟩]
    Facts₀.concatenates_S10000x1_S10000x1_S10000x2_d1

/-- The edge counts: zeros, plus a one scattered at (target, source) for every edge. -/
def countsE (ei : IVec S2x640000 32) : S10000x10000.Idx → EReal :=
  Host.scatterAdd (F := Ideal) (φ := .f32) scatter_S10000x10000_S640000x2_S640000_n_01_01_1
    (broadcastInDim S10000x10000 ![] Facts₀.bcast_S_S10000x10000 (constant (F := Ideal) S_ .f32 0x00000000#32))
    (edgeIdx ei)
    (broadcastInDim S640000 ![] Facts₀.bcast_S_S640000 (constant (F := Ideal) S_ .f32 0x3F800000#32))

/-- The edge counts plus a one scattered on every diagonal entry. -/
def countsD (ei : IVec S2x640000 32) : S10000x10000.Idx → EReal :=
  Host.scatterAdd (F := Ideal) (φ := .f32) scatter_S10000x10000_S10000x2_S10000_n_01_01_1
    (countsE ei) diagIdx
    (broadcastInDim S10000 ![] Facts₀.bcast_S_S10000 (constant (F := Ideal) S_ .f32 0x3F800000#32))

/-- That matrix zero-padded to 10240 × 10240 (the padding value is the integer zero converted). -/
def padded (ei : IVec S2x640000 32) : S10240x10240.Idx → EReal :=
  pad S10240x10240 ![0, 0] ![240, 240] ![0, 0] (countsD ei)
    (sitofp (F := Ideal) .f32 (constantI S_ 32 0#32)) Facts₀.pads_S10000x10000_S10240x10240_02400_02400 Facts₀.h_S_

section Concrete

/-- Row `k` of the edge list, read at edge `e`. -/
theorem rowE_apply (ei : IVec S2x640000 32) (k : Fin 2) (h : S2x640000.Slices ![k.val, 0] S1x640000) (e : Fin 640000) :
    rowE ei k h (ix1 e) = ei (ix2 k e) := by
  unfold rowE
  refine (shapeCast_apply _ _ (ix1 e) (ix2 (0 : Fin 1) e) ?_).trans ?_
  · rw [Shape.rowMajor_val_two, Shape.rowMajor_val_one]
    show (0 : ℕ) * 640000 + e.val = e.val
    omega
  · refine extractStridedSlice_apply _ _ _ _ (ix2 k e) (fun a => ?_)
    match a with
    | ⟨0, _⟩ => show k.val = k.val + 0; omega
    | ⟨1, _⟩ => show e.val = 0 + e.val; omega

/-- The wrap leaves a non-negative entry alone. -/
theorem wrapE_apply (v : IVec S640000 32) (j : S640000.Idx) (hj : 0 ≤ (v j).toInt) : wrapE v j = v j :=
  wrap_word (v j) hj

theorem wrapN_apply (v : IVec S10000 32) (j : S10000.Idx) (hj : 0 ≤ (v j).toInt) : wrapN v j = v j :=
  wrap_word (v j) hj

end Concrete

/-- At the ideal values the host's accumulating scatter is the sum of the colliding updates. -/
theorem hostScatter_eq {s si u : Shape} {w : ℕ} (d : ScatterDims s si u) (x : s.Idx → EReal) (idx : IVec si w) (upd : u.Idx → EReal) :
    Host.scatterAdd (F := Ideal) (φ := .f32) d x idx upd = Ideal.hostScatterAdd d x idx upd :=
  Ideal.hostScatterAdd_def (φ := .f32) d .single x idx upd

/-- The program's two scatters are point scatters. -/
theorem scatterE_eq : scatter_S10000x10000_S640000x2_S640000_n_01_01_1
    = ptDims Facts₀.scatter_S10000x10000_S640000x2_S640000_n_01_01_1_wf := rfl

theorem scatterD_eq : scatter_S10000x10000_S10000x2_S10000_n_01_01_1
    = ptDims Facts₀.scatter_S10000x10000_S10000x2_S10000_n_01_01_1_wf := rfl

section Value
open Idealize.ShloMosaic.WordArith
variable (ei : IVec S2x640000 32)

/-- On an in-range edge list, column 0 of the edge table at `e` is the target word of `e` … -/
theorem edgeIdx_zero (hr : Cert.Gin.InRange ei) (e : Fin 640000) : edgeIdx ei (ix2 e 0) = ei (ix2 1 e) := by
  unfold edgeIdx
  refine (cols_apply_zero _ _ _ _ e).trans ?_
  rw [wrapE_apply _ _ (by rw [rowE_apply]; exact (hr _).1), rowE_apply]

/-- … and column 1 its source word. -/
theorem edgeIdx_one (hr : Cert.Gin.InRange ei) (e : Fin 640000) : edgeIdx ei (ix2 e 1) = ei (ix2 0 e) := by
  unfold edgeIdx
  refine (cols_apply_one _ _ _ _ e).trans ?_
  rw [wrapE_apply _ _ (by rw [rowE_apply]; exact (hr _).1), rowE_apply]

theorem iota_nonneg (n : Fin 10000) : 0 ≤ (iotaInDim S10000 32 0 (ix1 n)).toInt := by
  show 0 ≤ (BitVec.ofNat 32 n.val).toInt
  rw [toInt_ofNat_small _ (by have := n.isLt; omega)]
  omega

/-- Both columns of the diagonal table at `n` are the word `n`. -/
theorem diagIdx_zero (n : Fin 10000) : diagIdx (ix2 n 0) = BitVec.ofNat 32 n.val := by
  unfold diagIdx
  refine (cols_apply_zero _ _ _ _ n).trans ?_
  rw [wrapN_apply _ _ (iota_nonneg n)]
  rfl

theorem diagIdx_one (n : Fin 10000) : diagIdx (ix2 n 1) = BitVec.ofNat 32 n.val := by
  unfold diagIdx
  refine (cols_apply_one _ _ _ _ n).trans ?_
  rw [wrapN_apply _ _ (iota_nonneg n)]
  rfl

/-- The edge scatter at `(r, q)`: the number of edges with target `r` and source `q`. -/
theorem countsE_apply (hr : Cert.Gin.InRange ei) (r q : Fin 10000) :
    countsE ei (ix2 r q)
      = ∑ e : Fin 640000, if (Cert.Gin.node ei 1 e).val = r.val ∧ (Cert.Gin.node ei 0 e).val = q.val then (1 : EReal) else 0 := by
  unfold countsE
  rw [hostScatter_eq, scatterE_eq, ptScatter_apply]
  have hz : broadcastInDim S10000x10000 ![] Facts₀.bcast_S_S10000x10000 (constant (F := Ideal) S_ .f32 0x00000000#32) (ix2 r q)
      = (0 : EReal) := Ideal.ofBits_zero_f32
  rw [hz, zero_add]
  refine Finset.sum_congr rfl fun e _ => ?_
  rw [edgeIdx_zero ei hr, edgeIdx_one ei hr]
  have hu : broadcastInDim S640000 ![] Facts₀.bcast_S_S640000 (constant (F := Ideal) S_ .f32 0x3F800000#32) (ix1 e)
      = (1 : EReal) := ofBits_one_f32
  rw [hu]
  refine if_congr ?_ rfl rfl
  have h1 := hr (ix2 1 e)
  have h0 := hr (ix2 0 e)
  show _ ↔ min (ei (ix2 1 e)).toInt.toNat 9999 = r.val ∧ min (ei (ix2 0 e)).toInt.toNat 9999 = q.val
  omega

/-- The diagonal scatter adds a one exactly on the diagonal. -/
theorem countsD_apply (r q : Fin 10000) :
    countsD ei (ix2 r q) = countsE ei (ix2 r q) + (if r.val = q.val then (1 : EReal) else 0) := by
  unfold countsD
  rw [hostScatter_eq, scatterD_eq, ptScatter_apply]
  congr 1
  have hs : ∀ n : Fin 10000,
      (if (diagIdx (ix2 n 0)).toInt = (r.val : ℤ) ∧ (diagIdx (ix2 n 1)).toInt = (q.val : ℤ) then
          broadcastInDim S10000 ![] Facts₀.bcast_S_S10000 (constant (F := Ideal) S_ .f32 0x3F800000#32) (ix1 n)
        else (0 : EReal))
        = if n = r then (if r.val = q.val then (1 : EReal) else 0) else 0 := by
    intro n
    have hu : broadcastInDim S10000 ![] Facts₀.bcast_S_S10000 (constant (F := Ideal) S_ .f32 0x3F800000#32) (ix1 n)
        = (1 : EReal) := ofBits_one_f32
    rw [diagIdx_zero, diagIdx_one, toInt_ofNat_small _ (by have := n.isLt; omega), hu]
    by_cases hn : n = r
    · subst hn
      rw [if_pos rfl]
      refine if_congr ?_ rfl rfl
      omega
    · rw [if_neg hn, if_neg]
      intro h
      exact hn (Fin.ext (by omega))
  rw [Finset.sum_congr rfl fun n _ => hs n, Finset.sum_ite_eq' Finset.univ r, if_pos (Finset.mem_univ r)]

/-- The padded matrix at `(r, q)` is the adjacency-count matrix there: inside the 10000 × 10000 corner the edge count
    plus the diagonal's one, outside it the padding value, which is zero. -/
theorem padded_apply (hr : Cert.Gin.InRange ei) (r q : Fin 10240) :
    padded ei (ix2 r q) = Cert.Gin.adj ei r.val q.val := by
  unfold padded Cert.Gin.adj
  by_cases h : r.val < 10000 ∧ q.val < 10000
  · rw [if_pos h]
    refine (pad_apply_of_inside _ _ _ _ _ _ _ _ (ix2 ⟨r.val, h.1⟩ ⟨q.val, h.2⟩) (fun a => ?_)).trans ?_
    · match a with
      | ⟨0, _⟩ => show r.val = 0 + r.val * (0 + 1); omega
      | ⟨1, _⟩ => show q.val = 0 + q.val * (0 + 1); omega
    · rw [countsD_apply, countsE_apply ei hr]
  · rw [if_neg h]
    have hv : sitofp (F := Ideal) .f32 (constantI S_ 32 0#32) (Shape.Idx.first Facts₀.h_S_) = (0 : EReal) := sitofp_zero
    by_cases h0 : r.val < 10000
    · have h1 : ¬ q.val < 10000 := fun hq => h ⟨h0, hq⟩
      refine (pad_apply_of_not_inside _ _ _ _ _ _ _ _ (1 : Fin 2) (fun hh => h1 ?_)).trans hv
      have h2 : (q.val - 0) / (0 + 1) < 10000 := hh.2.2
      omega
    · refine (pad_apply_of_not_inside _ _ _ _ _ _ _ _ (0 : Fin 2) (fun hh => h0 ?_)).trans hv
      have h2 : (r.val - 0) / (0 + 1) < 10000 := hh.2.2
      omega

end Value

section Casts

/-- The conversion to bf16 is the identity at the ideal values. -/
theorem truncf_bf16_id {s : Shape} (a : FVec Ideal s .f32) (h : FTy.bits .bf16 < FTy.bits .f32) :
    (truncf .bf16 a h : FVec Ideal s .bf16) = a := funext fun _ => rfl

/-- A tensor value's contents as its buffer's contents, and back, are the contents: the two types are one. -/
theorem toBuf_v36 (v : (⟨S10240x10240, .f32⟩ : BufTy).Contents (Elt Ideal)) :
    (StableHlo.TRef.of (sig := sig) (T := ⟨S10240x10240, .f32⟩) main_v36).toBuf v = v := rfl

theorem ofBuf_v35 (v : (⟨S10000x10000, .f32⟩ : BufTy).Contents (Elt Ideal)) :
    (StableHlo.TRef.of (sig := sig) (T := ⟨S10000x10000, .f32⟩) main_v35).ofBuf v = v := rfl

theorem toBuf_call0 (v : (⟨S_, .f32⟩ : BufTy).Contents (Elt Ideal)) :
    (StableHlo.TRef.of (sig := sig) (T := ⟨S_, .f32⟩) main_call0_v0).toBuf v = v := rfl

theorem ofBuf_call0 (v : (⟨S_, .f32⟩ : BufTy).Contents (Elt Ideal)) :
    (StableHlo.TRef.of (sig := sig) (T := ⟨S_, .f32⟩) main_call0_v0).ofBuf v = v := rfl

theorem ofBuf_c9 (v : (⟨S_, .i32⟩ : BufTy).Contents (Elt Ideal)) :
    (StableHlo.TRef.of (sig := sig) (T := ⟨S_, .i32⟩) main_c_9).ofBuf v = v := rfl

end Casts

variable (m : (ℓ : Loc nD τ sig) → Buf (Elt Ideal) ℓ)

set_option maxHeartbeats 4000000 in
/-- What the launch finds in its first operand, as the host operations' composed term of the edge list. -/
theorem V_adj_term (c : Dev nD) :
    (V m c main_v38 : S10240x10240.Idx → EReal) = padded (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  -- the two index tables are concatenations: their pieces are named, each is read through the operations before
  -- it, and they are put back
  generalize hA : HloOp.result _ _ (Proc.devRef .tc main_v15) = A
  generalize hB : HloOp.result _ _ (Proc.devRef .tc main_v16) = B
  generalize hC : HloOp.result _ _ (Proc.devRef .tc main_v31) = C
  generalize hD : HloOp.result _ _ (Proc.devRef .tc main_v32) = D
  simp (disch := decide) only [StableHlo.after_cons, StableHlo.after_nil,
      StableHlo.nullary_result', StableHlo.unary_result', StableHlo.binary_result', StableHlo.ternary_result', StableHlo.reshape_result',
      StableHlo.nullary_result_ne', StableHlo.unary_result_ne', StableHlo.binary_result_ne', StableHlo.ternary_result_ne', StableHlo.reshape_result_ne'] at hA hB hC hD
  subst hA hB hC hD
  -- the conversion to bf16 and the passages between a value's type and its buffer's are identities
  rw [truncf_bf16_id, toBuf_v36, ofBuf_v35, ofBuf_call0, toBuf_call0, ofBuf_c9]
  rfl

end Adj

variable (m : (ℓ : Loc nD τ sig) → Buf (Elt Ideal) ℓ)

/-- Operand 0: the padded adjacency counts. -/
theorem V_adj (c : Dev nD) (hr : Cert.Gin.InRange (m ((c : Thread nD τ).loc main_arg1))) (r q : Fin 10240) :
    (V m c main_v38 : S10240x10240.Idx → EReal) (ix2 r q) = Cert.Gin.adj (m ((c : Thread nD τ).loc main_arg1)) r.val q.val :=
  (congrFun (Adj.V_adj_term m c) (ix2 r q)).trans (Adj.padded_apply _ hr r q)

end Cert.KernelIdeal.HostValue

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Algebra.lean ====
/-
  The one law that joins the two programs: multiplying the features by the adjacency-count matrix is
  summing the source rows over the edges.
-/
import proofs.«411089_j89635967467763_1_alg».proof.Proof.Spec
import proofs.«411089_j89635967467763_1_alg».proof.Proof.LibReal
import Mathlib.Algebra.BigOperators.Fin
import Mathlib.Algebra.BigOperators.Ring.Finset
import Mathlib.Logic.Equiv.Fin.Basic
import Mathlib.Data.Finset.Range

noncomputable section

namespace Cert.Gin

open Idealize.ShloMosaic Idealize.ShloMosaic.ValueIdx Cert.LibReal

open scoped BigOperators

/-- A sum cut into `m` consecutive blocks of `n` terms is the sum over the first `m * n` naturals:
    the term of block `k` at place `j` is the one at `n * k + j`. -/
theorem sum_blocks {M : Type*} [AddCommMonoid M] (m n : ℕ) (F : ℕ → M) :
    (∑ k : Fin m, ∑ j : Fin n, F (n * k.val + j.val)) = ∑ q ∈ Finset.range (m * n), F q := by
  rw [Finset.sum_range, ← Equiv.sum_comp finProdFinEquiv, Fintype.sum_prod_type]
  refine Finset.sum_congr rfl fun k _ => Finset.sum_congr rfl fun j _ => ?_
  show F (n * k.val + j.val) = F (j.val + n * k.val)
  rw [add_comm]

/-- The identity over the reals, for any target map `T`, source map `S` and features `A`: the row `r` of
    (edge counts + identity) times `A` is `A r` plus the sum of `A (S e)` over the edges with `T e = r`.
    Each edge `e` contributes to exactly one column, `S e`. -/
theorem row_mul_real {n m : ℕ} (T S : Fin m → Fin n) (A : Fin n → ℝ) (r : Fin n) :
    (∑ q : Fin n, ((∑ e : Fin m, if (T e).val = r.val ∧ (S e).val = q.val then (1 : ℝ) else 0)
        + (if r.val = q.val then 1 else 0)) * A q)
      = (∑ e : Fin m, if (T e).val = r.val then A (S e) else 0) + A r := by
  simp only [add_mul, Finset.sum_add_distrib, Finset.sum_mul]
  congr 1
  · rw [Finset.sum_comm]
    refine Finset.sum_congr rfl fun e _ => ?_
    rw [Finset.sum_eq_single (S e)]
    · by_cases h : (T e).val = r.val
      · rw [if_pos ⟨h, rfl⟩, if_pos h, one_mul]
      · rw [if_neg (fun hh => h hh.1), if_neg h, zero_mul]
    · intro q _ hq
      rw [if_neg (fun hh => hq (Fin.ext hh.2.symm)), zero_mul]
    · intro h; exact absurd (Finset.mem_univ _) h
  · rw [Finset.sum_eq_single r]
    · rw [if_pos rfl, one_mul]
    · intro q _ hq
      rw [if_neg (fun hh => hq (Fin.ext hh.symm)), zero_mul]
    · intro h; exact absurd (Finset.mem_univ _) h

/-- The same identity with every operation the extended reals', on real entries: each count is a real
    number, so the products and sums are the real ones. -/
theorem row_mul_ereal {n m : ℕ} (T S : Fin m → Fin n) (A : Fin n → ℝ) (r : Fin n) :
    (∑ q : Fin n, ((∑ e : Fin m, if (T e).val = r.val ∧ (S e).val = q.val then (1 : EReal) else 0)
        + (if r.val = q.val then 1 else 0)) * (A q : EReal))
      = (∑ e : Fin m, if (T e).val = r.val then (A (S e) : EReal) else 0) + (A r : EReal) := by
  have hcount : ∀ q : Fin n,
      ((∑ e : Fin m, if (T e).val = r.val ∧ (S e).val = q.val then (1 : EReal) else 0)
        + (if r.val = q.val then 1 else 0))
      = (((∑ e : Fin m, if (T e).val = r.val ∧ (S e).val = q.val then (1 : ℝ) else 0)
        + (if r.val = q.val then 1 else 0) : ℝ) : EReal) := by
    intro q
    rw [EReal.coe_add, coe_sum]
    congr 1
    · refine Finset.sum_congr rfl fun e _ => ?_
      split_ifs <;> rfl
    · split_ifs <;> rfl
  have hedges : (∑ e : Fin m, if (T e).val = r.val then (A (S e) : EReal) else 0)
      = ((∑ e : Fin m, if (T e).val = r.val then A (S e) else 0 : ℝ) : EReal) := by
    rw [coe_sum]
    refine Finset.sum_congr rfl fun e _ => ?_
    split_ifs <;> rfl
  simp only [hcount, hedges, ← EReal.coe_mul, ← coe_sum, ← EReal.coe_add]
  exact congrArg _ (row_mul_real T S A r)

/-- For real features, row `r` of (adjacency counts + identity, zero-padded to 5 × 2048 columns) times the
    zero-padded features is `x_r + Σ_{e : target e = r} x_{source e}`. -/
theorem hsum_eq (x : SX.Idx → EReal) (ei : IVec SE 32) (hx : ∀ i, IsReal (x i)) (r : Fin 10000) (d : Fin 128) :
    (∑ k : Fin 5, ∑ j : Fin 2048, adj ei r.val (2048 * k.val + j.val) * xpad x (2048 * k.val + j.val) d)
      = hpre x ei (ix2 r d) := by
  choose a ha using hx
  -- the 5 × 2048 blocks are the columns 0 … 10239, and the columns from 10000 on contribute nothing
  have hcols : (∑ k : Fin 5, ∑ j : Fin 2048, adj ei r.val (2048 * k.val + j.val) * xpad x (2048 * k.val + j.val) d)
      = ∑ q : Fin 10000, adj ei r.val q.val * xpad x q.val d := by
    rw [sum_blocks 5 2048 (fun q => adj ei r.val q * xpad x q d), ← Finset.sum_range (fun q => adj ei r.val q * xpad x q d)]
    symm
    refine Finset.sum_subset (Finset.range_subset_range.2 (by norm_num)) ?_
    intro q _ hq
    have hq' : ¬ q < 10000 := fun h => hq (Finset.mem_range.2 h)
    show adj ei r.val q * xpad x q d = 0
    rw [adj, if_neg (fun h => hq' h.2), zero_mul]
  rw [hcols]
  -- inside the corner both paddings read through
  have hterm : ∀ q : Fin 10000, adj ei r.val q.val * xpad x q.val d
      = ((∑ e : Fin 640000, if (node ei 1 e).val = r.val ∧ (node ei 0 e).val = q.val then (1 : EReal) else 0)
          + (if r.val = q.val then 1 else 0)) * ((a (ix2 q d) : ℝ) : EReal) := by
    intro q
    rw [adj, if_pos ⟨r.isLt, q.isLt⟩, xpad, dif_pos q.isLt]
    show _ * x (ix2 q d) = _
    rw [ha]
  rw [Finset.sum_congr rfl fun q _ => hterm q]
  rw [row_mul_ereal (node ei 1) (node ei 0) (fun q => a (ix2 q d)) r]
  show _ = (∑ e : Fin 640000, if (node ei 1 e).val = r.val then x (ix2 (node ei 0 e) d) else 0) + x (ix2 r d)
  simp only [ha]

end Cert.Gin

end
-- ==== Proof.Bridge.lean ====
/-
  The kernel's result is the specification's: its operand arrays are the padded adjacency counts and the padded
  features, so the accumulated product's row is  x_r + Σ_{e : target e = r} x_{source e}  (for real features: the
  law of Algebra.lean), and the two dense layers on top are the same sums on both sides.
-/
import proofs.«411089_j89635967467763_1_alg».proof.Proof.KFinal
import proofs.«411089_j89635967467763_1_alg».proof.Proof.KHost
import proofs.«411089_j89635967467763_1_alg».proof.Proof.KHostAdj
import proofs.«411089_j89635967467763_1_alg».proof.Proof.Algebra

noncomputable section

namespace Cert.KernelIdeal.KValue

open Cert.KernelIdeal Cert.KernelIdeal.Gen Cert.KernelIdeal.HostValue Idealize.ShloMosaic Idealize.ShloMosaic.TcCoe
  Idealize.ShloMosaic.ValueIdx Idealize.SL.Sem Cert.Gin Cert.LibReal

variable (m : (ℓ : Loc nD τ sig) → Buf (Elt Ideal) ℓ)

/-- A real row of the accumulated product is the aggregated features of that node. -/
theorem hK_eq (c : Dev nD) (hr : InRange (m ((c : Thread nD τ).loc main_arg1))) (hx : ∀ i, IsReal ((m ((c : Thread nD τ).loc main_arg0)) i)) (R : Fin 10000) (k : Fin 128) :
    hK m c ⟨R.val, by have := R.isLt; omega⟩ k = hpre (m ((c : Thread nD τ).loc main_arg0)) (m ((c : Thread nD τ).loc main_arg1)) (ix2 R k) := by
  unfold hK
  rw [zero_add, ← hsum_eq (m ((c : Thread nD τ).loc main_arg0)) (m ((c : Thread nD τ).loc main_arg1)) hx R k]
  refine Finset.sum_congr rfl fun s _ => Finset.sum_congr rfl fun j _ => ?_
  have hs := s.isLt
  have hj := j.isLt
  have hR := R.isLt
  rw [show Aarr m c (ix2 (⟨R.val, by omega⟩ : Fin 10240) (⟨2048 * s.val + j.val, by omega⟩ : Fin 10240)) = adj (m ((c : Thread nD τ).loc main_arg1)) R.val (2048 * s.val + j.val) from
      V_adj m c hr ⟨R.val, by omega⟩ ⟨2048 * s.val + j.val, by omega⟩,
    show Xarr m c (ix2 (⟨2048 * s.val + j.val, by omega⟩ : Fin 10240) k) = xpad (m ((c : Thread nD τ).loc main_arg0)) (2048 * s.val + j.val) k from
      V_xpad m c ⟨2048 * s.val + j.val, by omega⟩ k]

/-- A real row of the kernel's output array is the layer's result for that node. -/
theorem outRow_eq (c : Dev nD) (hr : InRange (m ((c : Thread nD τ).loc main_arg1))) (hx : ∀ i, IsReal ((m ((c : Thread nD τ).loc main_arg0)) i)) (R : Fin 10000) (d : Fin 128) :
    outRow m c ⟨R.val, by have := R.isLt; omega⟩ d
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R d) := by
  have hW1 : ∀ a b : Fin 128, W1arr m c (ix2 a b) = (m ((c : Thread nD τ).loc main_arg2)) (ix2 a b) := fun a b => congrFun (V_w1 m c) (ix2 a b)
  have hW2 : ∀ a b : Fin 128, W2arr m c (ix2 a b) = (m ((c : Thread nD τ).loc main_arg4)) (ix2 a b) := fun a b => congrFun (V_w2 m c) (ix2 a b)
  have hB1 : ∀ b : Fin 128, B1arr m c (ix2 (0 : Fin 1) b) = (m ((c : Thread nD τ).loc main_arg3)) (ix1 b) := fun b => V_b1 m c b
  have hB2 : ∀ b : Fin 128, B2arr m c (ix2 (0 : Fin 1) b) = (m ((c : Thread nD τ).loc main_arg5)) (ix1 b) := fun b => V_b2 m c b
  unfold outRow
  simp only [hK_eq m c hr hx R, hW1, hW2, hB1, hB2]
  rfl

/-- The kernel's result, entry by entry. -/
theorem result_eq (c : Dev nD) (hr : InRange (m ((c : Thread nD τ).loc main_arg1))) (hx : ∀ i, IsReal ((m ((c : Thread nD τ).loc main_arg0)) i)) :
    result m c = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨R, d, rfl⟩ : ∃ (R : Fin 10000) (d : Fin 128), i = ix2 R d := ⟨i 0, i 1, eq_ix2 i⟩
  exact outRow_eq m c hr hx R d

end Cert.KernelIdeal.KValue

end
-- ==== Proof.RefValue.lean ====
/-
  The reference, read at an index: gather the source rows, sum them into the target rows, add the node's own
  features, then the two dense layers — the specification's `out`.
-/
import proofs.«411089_j89635967467763_1_alg».proof.Proof.Gen.ReferenceIdeal.Read
import proofs.«411089_j89635967467763_1_alg».proof.Proof.Spec

noncomputable section

namespace Cert.ReferenceIdeal.RefValue

open Cert.ReferenceIdeal Cert.ReferenceIdeal.Gen Idealize.ShloMosaic Idealize.ShloMosaic.ValueIdx
open Cert.ReferenceIdeal.Read

/-- Row r of the edge list at edge e, reached through the slice of row r, the reshape to a vector and the
    broadcast to a one-column matrix: the composed index is (r, e). -/
theorem row0_idx (e : Fin 640000) (z : Fin 1) :
    idx_main_v0 (idx_main_v1 (idx_main_v9 (ix2 e z))) = ix2 (0 : Fin 2) e := by
  funext a
  refine Fin.ext ?_
  match a with
  | ⟨0, _⟩ => rfl
  | ⟨1, _⟩ => show e.val % 640000 = e.val; have := e.isLt; omega

theorem row1_idx (e : Fin 640000) (z : Fin 1) :
    idx_main_v2 (idx_main_v3 (idx_main_v12 (ix2 e z))) = ix2 (1 : Fin 2) e := by
  funext a
  refine Fin.ext ?_
  match a with
  | ⟨0, _⟩ => rfl
  | ⟨1, _⟩ => show e.val % 640000 = e.val; have := e.isLt; omega

/-- The index vector of the targets at edge e is row 1 of the edge list. -/
theorem dst_at (x1 : IVec S2x640000 32) (e : Fin 640000) (z : Fin 1) :
    val_main_v12 (F := Ideal) x1 (ix2 e z) = x1 (ix2 (1 : Fin 2) e) := by
  rw [val_main_v12_apply, val_main_v3_apply, val_main_v2_apply, row1_idx]

/-- The index vector of the sources at edge e is row 0 of the edge list: on a nonnegative entry the wrap
    (add 10000 to a negative index) is not taken. -/
theorem src_at (x1 : IVec S2x640000 32) (hr : Cert.Gin.InRange x1) (e : Fin 640000) (z : Fin 1) :
    val_main_v9 (F := Ideal) x1 (ix2 e z) = x1 (ix2 (0 : Fin 2) e) := by
  rw [val_main_v9_apply, val_main_v8_apply, val_main_v5_apply, val_main_v1_apply, val_main_v0_apply, row0_idx,
    val_main_v4_apply, val_main_c_apply]
  have h0 : ¬ IntOp.cmpi .slt (x1 (ix2 (0 : Fin 2) e)) 0#32 = 1#1 := by
    rw [IntOp.cmpi_slt]
    have := (hr (ix2 (0 : Fin 2) e)).1
    have hz : (0#32).toInt = 0 := by decide
    omega
  rw [eq_zero_of_ne_one h0, select_zero]

/-- The gather at (e, d): row (source of e) of the features at column d. The start index is read signed and
    clamped to 9999, which is the specification's `node`; on the collapsed row axis there is no offset, on the
    column axis the start is 0 and the offset is d. -/
theorem gather_at (x0 : FVec Ideal S10000x128 .f32) (x1 : IVec S2x640000 32) (hr : Cert.Gin.InRange x1)
    (e : Fin 640000) (d : Fin 128) :
    val_main_v10 (F := Ideal) x0 x1 (ix2 e d) = x0 (ix2 (Cert.Gin.node x1 0 e) d) := by
  unfold val_main_v10 Host.gather
  congr 1
  funext a
  refine Fin.ext ?_
  match a with
  | ⟨0, _⟩ =>
    show gather_S10000x128_S640000x1_S640000x128_1_0_n_n_0_1_1128.start (ix2 e d) (val_main_v9 (F := Ideal) x1) 0
      + gather_S10000x128_S640000x1_S640000x128_1_0_n_n_0_1_1128.batchCoord (ix2 e d) 0
      + gather_S10000x128_S640000x1_S640000x128_1_0_n_n_0_1_1128.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S640000x1_S640000x128_1_0_n_n_0_1_1128.startIndexMap from
      List.mem_singleton.mpr rfl)]
    have hsi : gather_S10000x128_S640000x1_S640000x128_1_0_n_n_0_1_1128.siIdx (ix2 e d)
        ⟨List.idxOf (0 : Fin 2) gather_S10000x128_S640000x1_S640000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, src_at x1 hr]
    rfl
  | ⟨1, _⟩ =>
    show gather_S10000x128_S640000x1_S640000x128_1_0_n_n_0_1_1128.start (ix2 e d) (val_main_v9 (F := Ideal) x1) 1
      + gather_S10000x128_S640000x1_S640000x128_1_0_n_n_0_1_1128.batchCoord (ix2 e d) 1
      + gather_S10000x128_S640000x1_S640000x128_1_0_n_n_0_1_1128.offCoord (ix2 e d) 1 = _
    rw [GatherDims.batchCoord_eq_zero _ _ _ List.not_mem_nil]
    unfold GatherDims.start
    rw [dif_neg (show ¬ (1 : Fin 2) ∈ gather_S10000x128_S640000x1_S640000x128_1_0_n_n_0_1_1128.startIndexMap by decide)]
    simp only [Nat.add_zero, Nat.zero_add]
    unfold GatherDims.offCoord
    rw [dif_pos (show (1 : Fin 2) ∈ gather_S10000x128_S640000x1_S640000x128_1_0_n_n_0_1_1128.sKept by decide)]
    rfl

/-- Where the update (e, d') lands: at row (target of e), column d'. The start index on the row axis is the
    edge list's entry read signed and not clamped — in range by hypothesis, so the update is never dropped —
    and on the column axis the window coordinate d'. -/
theorem scatter_hit (x1 : IVec S2x640000 32) (hr : Cert.Gin.InRange x1) (e : Fin 640000) (d' : Fin 128)
    (p : Fin 10000) (q : Fin 128) :
    scatter_S10000x128_S640000x1_S640000x128_1_0_0_1.resultIdx? (ix2 e d') (val_main_v12 (F := Ideal) x1)
        = some (ix2 p q)
      ↔ ((Cert.Gin.node x1 1 e).val = p.val ∧ d' = q) := by
  have hv := hr (ix2 (1 : Fin 2) e)
  have hs0 : scatter_S10000x128_S640000x1_S640000x128_1_0_0_1.start (ix2 e d') (val_main_v12 (F := Ideal) x1) 0
      = (x1 (ix2 (1 : Fin 2) e)).toInt := by
    unfold ScatterDims.start
    rw [dif_pos (show (0 : Fin 2) ∈ scatter_S10000x128_S640000x1_S640000x128_1_0_0_1.scatterDimsToOperandDims from
      List.mem_singleton.mpr rfl)]
    have hsi : scatter_S10000x128_S640000x1_S640000x128_1_0_0_1.siIdx (ix2 e d')
        ⟨List.idxOf (0 : Fin 2) scatter_S10000x128_S640000x1_S640000x128_1_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, dst_at]
  have hs1 : scatter_S10000x128_S640000x1_S640000x128_1_0_0_1.start (ix2 e d') (val_main_v12 (F := Ideal) x1) 1 = 0 := by
    unfold ScatterDims.start
    rw [dif_neg (show ¬ (1 : Fin 2) ∈ scatter_S10000x128_S640000x1_S640000x128_1_0_0_1.scatterDimsToOperandDims by decide)]
  have hw0 : scatter_S10000x128_S640000x1_S640000x128_1_0_0_1.window (ix2 e d') 0 = 0 := by
    unfold ScatterDims.window
    rw [dif_neg (show ¬ (0 : Fin 2) ∈ scatter_S10000x128_S640000x1_S640000x128_1_0_0_1.sKept by decide)]
  have hw1 : scatter_S10000x128_S640000x1_S640000x128_1_0_0_1.window (ix2 e d') 1 = d'.val := by
    unfold ScatterDims.window
    rw [dif_pos (show (1 : Fin 2) ∈ scatter_S10000x128_S640000x1_S640000x128_1_0_0_1.sKept by decide)]
    rfl
  have hall : ∀ a : Fin S10000x128.rank,
      0 ≤ scatter_S10000x128_S640000x1_S640000x128_1_0_0_1.start (ix2 e d') (val_main_v12 (F := Ideal) x1) a
          + scatter_S10000x128_S640000x1_S640000x128_1_0_0_1.window (ix2 e d') a
      ∧ scatter_S10000x128_S640000x1_S640000x128_1_0_0_1.start (ix2 e d') (val_main_v12 (F := Ideal) x1) a
          + scatter_S10000x128_S640000x1_S640000x128_1_0_0_1.window (ix2 e d') a < S10000x128.size a := by
    intro a
    match a with
    | ⟨0, _⟩ =>
      show 0 ≤ scatter_S10000x128_S640000x1_S640000x128_1_0_0_1.start (ix2 e d') (val_main_v12 (F := Ideal) x1) 0
          + ((scatter_S10000x128_S640000x1_S640000x128_1_0_0_1.window (ix2 e d') 0 : Nat) : Int)
        ∧ scatter_S10000x128_S640000x1_S640000x128_1_0_0_1.start (ix2 e d') (val_main_v12 (F := Ideal) x1) 0
          + ((scatter_S10000x128_S640000x1_S640000x128_1_0_0_1.window (ix2 e d') 0 : Nat) : Int) < ((10000 : Nat) : Int)
      rw [hs0, hw0]; omega
    | ⟨1, _⟩ =>
      show 0 ≤ scatter_S10000x128_S640000x1_S640000x128_1_0_0_1.start (ix2 e d') (val_main_v12 (F := Ideal) x1) 1
          + ((scatter_S10000x128_S640000x1_S640000x128_1_0_0_1.window (ix2 e d') 1 : Nat) : Int)
        ∧ scatter_S10000x128_S640000x1_S640000x128_1_0_0_1.start (ix2 e d') (val_main_v12 (F := Ideal) x1) 1
          + ((scatter_S10000x128_S640000x1_S640000x128_1_0_0_1.window (ix2 e d') 1 : Nat) : Int) < ((128 : Nat) : Int)
      rw [hs1, hw1]; have := d'.isLt; omega
  unfold ScatterDims.resultIdx?
  rw [dif_pos hall]
  have hnode : (Cert.Gin.node x1 1 e).val = min (x1 (ix2 (1 : Fin 2) e)).toInt.toNat 9999 := rfl
  constructor
  · intro h
    have h' := Option.some.inj h
    have e0 : (scatter_S10000x128_S640000x1_S640000x128_1_0_0_1.start (ix2 e d') (val_main_v12 (F := Ideal) x1) 0
        + ((scatter_S10000x128_S640000x1_S640000x128_1_0_0_1.window (ix2 e d') 0 : Nat) : Int)).toNat = p.val :=
      congrArg Fin.val (congrFun h' 0)
    have e1 : (scatter_S10000x128_S640000x1_S640000x128_1_0_0_1.start (ix2 e d') (val_main_v12 (F := Ideal) x1) 1
        + ((scatter_S10000x128_S640000x1_S640000x128_1_0_0_1.window (ix2 e d') 1 : Nat) : Int)).toNat = q.val :=
      congrArg Fin.val (congrFun h' 1)
    rw [hs0, hw0] at e0
    rw [hs1, hw1] at e1
    refine ⟨?_, Fin.ext ?_⟩
    · rw [hnode]; omega
    · omega
  · rintro ⟨hn, rfl⟩
    rw [hnode] at hn
    refine congrArg some (funext fun a => Fin.ext ?_)
    match a with
    | ⟨0, _⟩ =>
      show (scatter_S10000x128_S640000x1_S640000x128_1_0_0_1.start (ix2 e d') (val_main_v12 (F := Ideal) x1) 0
        + ((scatter_S10000x128_S640000x1_S640000x128_1_0_0_1.window (ix2 e d') 0 : Nat) : Int)).toNat = p.val
      rw [hs0, hw0]; omega
    | ⟨1, _⟩ =>
      show (scatter_S10000x128_S640000x1_S640000x128_1_0_0_1.start (ix2 e d') (val_main_v12 (F := Ideal) x1) 1
        + ((scatter_S10000x128_S640000x1_S640000x128_1_0_0_1.window (ix2 e d') 1 : Nat) : Int)).toNat = d'.val
      rw [hs1, hw1]; omega

/-- The accumulating scatter at the ideal instance, for any operand, index vector and updates: the operand's
    element plus the updates that land on it, the updates' index split into edge and column. -/
theorem scatter_gen (a : FVec Ideal S10000x128 .f32) (b : IVec S640000x1 32) (c : FVec Ideal S640000x128 .f32)
    (i : S10000x128.Idx) :
    Host.scatterAdd scatter_S10000x128_S640000x1_S640000x128_1_0_0_1 a b c i
      = a i + ∑ e : Fin 640000, ∑ d' : Fin 128,
          if scatter_S10000x128_S640000x1_S640000x128_1_0_0_1.resultIdx? (ix2 e d') b = some i then c (ix2 e d') else 0 := by
  have h : Host.scatterAdd scatter_S10000x128_S640000x1_S640000x128_1_0_0_1 a b c i
      = a i + ∑ j ∈ Finset.univ.filter (fun j => scatter_S10000x128_S640000x1_S640000x128_1_0_0_1.resultIdx? j b = some i), c j := rfl
  rw [h, Finset.sum_filter, sum_idx2]

/-- The scatter stage is the accumulating scatter of the gathered rows into the zero array. -/
theorem val13_def (x0 : FVec Ideal S10000x128 .f32) (x1 : IVec S2x640000 32) :
    val_main_v13 (F := Ideal) x0 x1
      = Host.scatterAdd (F := Ideal) (φ := .f32) scatter_S10000x128_S640000x1_S640000x128_1_0_0_1 (val_main_v11 (F := Ideal)) (val_main_v12 (F := Ideal) x1) (val_main_v10 (F := Ideal) x0 x1) := rfl

/-- The scatter-add at (p, q): the zero operand plus the gathered rows of the edges whose target is p, at
    column q. By `scatter_hit` the update (e, d') lands on (p, q) exactly when the target of e is p and
    d' = q, so the inner sum over the columns keeps one term. -/
theorem scatter_at (x0 : FVec Ideal S10000x128 .f32) (x1 : IVec S2x640000 32) (hr : Cert.Gin.InRange x1)
    (p : Fin 10000) (q : Fin 128) :
    val_main_v13 (F := Ideal) x0 x1 (ix2 p q)
      = ∑ e : Fin 640000, if (Cert.Gin.node x1 1 e).val = p.val then x0 (ix2 (Cert.Gin.node x1 0 e) q) else 0 := by
  rw [val13_def, scatter_gen, val_main_v11_apply, val_main_cst_apply, Ideal.ofBits_def, Ideal.ofBits_zero_f32, zero_add]
  refine Finset.sum_congr rfl fun e _ => ?_
  have hterm : ∀ d' : Fin 128,
      (if scatter_S10000x128_S640000x1_S640000x128_1_0_0_1.resultIdx? (ix2 e d') (val_main_v12 (F := Ideal) x1)
          = some (ix2 p q) then val_main_v10 (F := Ideal) x0 x1 (ix2 e d') else 0)
        = if d' = q then (if (Cert.Gin.node x1 1 e).val = p.val then x0 (ix2 (Cert.Gin.node x1 0 e) d') else 0)
          else 0 := by
    intro d'
    rw [gather_at x0 x1 hr, if_congr ((scatter_hit x1 hr e d' p q).trans and_comm) rfl rfl, ite_and]
  rw [Finset.sum_congr rfl (fun d' _ => hterm d'), Finset.sum_ite_eq' Finset.univ q, if_pos (Finset.mem_univ q)]

/-! The composed index functions of the dense layers at explicit coordinates. -/

theorem lidx20 (p : Fin 10000) (q k : Fin 128) : lidx_main_v20 (ix2 p q) k = ix2 p k :=
  funext fun a => Fin.ext (by match a with | ⟨0, _⟩ => rfl | ⟨1, _⟩ => rfl)

theorem ridx20 (p : Fin 10000) (q k : Fin 128) : ridx_main_v20 (ix2 p q) k = ix2 k q :=
  funext fun a => Fin.ext (by match a with | ⟨0, _⟩ => rfl | ⟨1, _⟩ => rfl)

theorem lidx15 (p : Fin 10000) (q k : Fin 128) : lidx_main_v15 (ix2 p q) k = ix2 p k :=
  funext fun a => Fin.ext (by match a with | ⟨0, _⟩ => rfl | ⟨1, _⟩ => rfl)

theorem ridx15 (p : Fin 10000) (q k : Fin 128) : ridx_main_v15 (ix2 p q) k = ix2 k q :=
  funext fun a => Fin.ext (by match a with | ⟨0, _⟩ => rfl | ⟨1, _⟩ => rfl)

theorem bias22 (p : Fin 10000) (q : Fin 128) : idx_main_v21 (idx_main_v22 (ix2 p q)) = ix1 q :=
  funext fun a => Fin.ext (by match a with | ⟨0, _⟩ => rfl)

theorem bias17 (p : Fin 10000) (q : Fin 128) : idx_main_v16 (idx_main_v17 (ix2 p q)) = ix1 q :=
  funext fun a => Fin.ext (by match a with | ⟨0, _⟩ => rfl)

/-! The specification's functions at explicit coordinates (for any arguments). -/

theorem hpre_at (x : Cert.Gin.SX.Idx → EReal) (ei : IVec Cert.Gin.SE 32) (p : Fin 10000) (k : Fin 128) :
    Cert.Gin.hpre x ei (ix2 p k)
      = (∑ e : Fin 640000, if (Cert.Gin.node ei 1 e).val = p.val then x (ix2 (Cert.Gin.node ei 0 e) k) else 0)
        + x (ix2 p k) := rfl

theorem lin_at (h : Cert.Gin.SX.Idx → EReal) (W : Cert.Gin.SW.Idx → EReal) (b : Cert.Gin.SB.Idx → EReal)
    (p : Fin 10000) (q : Fin 128) :
    Cert.Gin.lin h W b (ix2 p q) = (∑ k : Fin 128, h (ix2 p k) * W (ix2 k q)) + b (ix1 q) := rfl

theorem out_at (x : Cert.Gin.SX.Idx → EReal) (ei : IVec Cert.Gin.SE 32) (W1 : Cert.Gin.SW.Idx → EReal)
    (b1 : Cert.Gin.SB.Idx → EReal) (W2 : Cert.Gin.SW.Idx → EReal) (b2 : Cert.Gin.SB.Idx → EReal)
    (p : Fin 10000) (q : Fin 128) :
    Cert.Gin.out x ei W1 b1 W2 b2 (ix2 p q)
      = (∑ k : Fin 128, max (Cert.Gin.lin (Cert.Gin.hpre x ei) W1 b1 (ix2 p k)) 0 * W2 (ix2 k q)) + b2 (ix1 q) := rfl

/-! The reference's stages at explicit coordinates, each against the specification's function. -/

/-- The aggregated features: scatter-add of the gathered rows, plus the node's own row. -/
theorem v14_at (x0 : FVec Ideal S10000x128 .f32) (x1 : IVec S2x640000 32) (hr : Cert.Gin.InRange x1)
    (p : Fin 10000) (k : Fin 128) :
    val_main_v14 (F := Ideal) x0 x1 (ix2 p k) = Cert.Gin.hpre x0 x1 (ix2 p k) := by
  rw [val_main_v14_apply, scatter_at x0 x1 hr, Ideal.addf_def, hpre_at]

/-- The first dense layer. -/
theorem v18_at (x0 : FVec Ideal S10000x128 .f32) (x1 : IVec S2x640000 32) (x2 : FVec Ideal S128x128 .f32)
    (x3 : FVec Ideal S128 .f32) (hr : Cert.Gin.InRange x1) (p : Fin 10000) (k : Fin 128) :
    val_main_v18 (F := Ideal) x0 x1 x2 x3 (ix2 p k) = Cert.Gin.lin (Cert.Gin.hpre x0 x1) x2 x3 (ix2 p k) := by
  have hs : (∑ k' : Fin 128, val_main_v14 (F := Ideal) x0 x1 (lidx_main_v15 (ix2 p k) k') * x2 (ridx_main_v15 (ix2 p k) k'))
      = ∑ k' : Fin 128, Cert.Gin.hpre x0 x1 (ix2 p k') * x2 (ix2 k' k) :=
    Finset.sum_congr rfl fun k' _ => by rw [lidx15, ridx15, v14_at x0 x1 hr]
  rw [val_main_v18_apply, val_main_v15_apply, hs, val_main_v17_apply, val_main_v16_apply, bias17, Ideal.addf_def, lin_at]

/-- The rectifier. -/
theorem v19_at (x0 : FVec Ideal S10000x128 .f32) (x1 : IVec S2x640000 32) (x2 : FVec Ideal S128x128 .f32)
    (x3 : FVec Ideal S128 .f32) (hr : Cert.Gin.InRange x1) (p : Fin 10000) (k : Fin 128) :
    val_main_v19 (F := Ideal) x0 x1 x2 x3 (ix2 p k)
      = max (Cert.Gin.lin (Cert.Gin.hpre x0 x1) x2 x3 (ix2 p k)) 0 := by
  rw [val_main_v19_apply, v18_at x0 x1 x2 x3 hr, val_main_call0_v0_apply, val_main_call0_cst_apply, Ideal.ofBits_def,
    Ideal.ofBits_zero_f32, Ideal.maximumf_def]

/-- On an in-range edge list the reference's result is the specification's. -/
theorem result_eq (x0 : FVec Ideal S10000x128 .f32) (x1 : IVec S2x640000 32) (x2 : FVec Ideal S128x128 .f32)
    (x3 : FVec Ideal S128 .f32) (x4 : FVec Ideal S128x128 .f32) (x5 : FVec Ideal S128 .f32) (hr : Cert.Gin.InRange x1) :
    Cert.ReferenceIdeal.Read.val_main_v23 (F := Ideal) x0 x1 x2 x3 x4 x5 = Cert.Gin.out x0 x1 x2 x3 x4 x5 := by
  funext i
  obtain ⟨p, q, rfl⟩ : ∃ (p : Fin 10000) (q : Fin 128), i = ix2 p q := ⟨i 0, i 1, eq_ix2 i⟩
  have hs : (∑ k : Fin 128, val_main_v19 (F := Ideal) x0 x1 x2 x3 (lidx_main_v20 (ix2 p q) k) * x4 (ridx_main_v20 (ix2 p q) k))
      = ∑ k : Fin 128, max (Cert.Gin.lin (Cert.Gin.hpre x0 x1) x2 x3 (ix2 p k)) 0 * x4 (ix2 k q) :=
    Finset.sum_congr rfl fun k _ => by rw [lidx20, ridx20, v19_at x0 x1 x2 x3 hr]
  rw [val_main_v23_apply, val_main_v20_apply, hs, val_main_v22_apply, val_main_v21_apply, bias22, Ideal.addf_def, out_at]

end Cert.ReferenceIdeal.RefValue

end
-- ==== Proof.PreDecode.lean ====
/-
  What the precondition says: every feature is a real number, and every entry of the edge list names a node.
-/
import proofs.«411089_j89635967467763_1_alg».proof.Pre_finite_inputs
import proofs.«411089_j89635967467763_1_alg».proof.Proof.Gen.Pre_finite_inputs
import proofs.«411089_j89635967467763_1_alg».proof.Proof.Spec
import proofs.«411089_j89635967467763_1_alg».proof.Proof.LibReal
import Idealize.ShloMosaic.Lib.ReduceAll

noncomputable section

namespace Cert.Gin

open Idealize.ShloMosaic Idealize.ShloMosaic.ValueIdx Cert.LibReal

/-- The rank-0 shape has a single index. -/
local instance preDecode_subsingleton_S_ : Subsingleton Cert.Pre_finite_inputs.S_.Idx :=
  ⟨fun a b => funext fun d => d.elim0⟩

/-- The pattern `0x7F800000` (sign clear, exponent all ones, fraction zero) denotes `+∞`. -/
theorem ofBits_inf : Ideal.ofBits .f32 0x7F800000#32 = (⊤ : EReal) := by
  simp [Ideal.ofBits, Ideal.ieee]

/-- An extended real whose absolute value `max a (-a)` lies strictly below `+∞` is a real number:
    `a = ⊤` gives `max ⊤ ⊥ = ⊤`, and `a = ⊥` gives `max ⊥ ⊤ = ⊤`. -/
theorem isReal_of_abs_lt_top (a : EReal) (h : max a (-a) < ⊤) : IsReal a := by
  induction a using EReal.rec with
  | bot => exact absurd h (by simp)
  | coe r => exact ⟨r, rfl⟩
  | top => exact absurd h (by simp)

/-- The comparison `|a| < +∞` as it is printed, read at one element. -/
theorem isReal_of_cmp (a : Ideal .f32)
    (h : FloatOps.cmpf .olt (FloatOps.hostAbsf a) (FloatOps.ofBits (F := Ideal) .f32 0x7F800000#32) = 1#1) : IsReal a := by
  have h' : BitVec.ofBool (decide (max (a : EReal) (-(a : EReal)) < Ideal.ofBits .f32 0x7F800000#32)) = 1#1 := h
  rw [ofBits_inf] at h'
  refine isReal_of_abs_lt_top a ?_
  by_contra hn
  rw [decide_eq_false hn] at h'
  exact absurd h' (by decide)

/-- The precondition's conjunction, split: the three conjuncts about the features and the edge list. -/
theorem pre_split (x : FVec Ideal Cert.Pre_finite_inputs.S10000x128 .f32) (ei : IVec Cert.Pre_finite_inputs.S2x640000 32)
    (W1 : FVec Ideal Cert.Pre_finite_inputs.S128x128 .f32) (b1 : FVec Ideal Cert.Pre_finite_inputs.S128 .f32)
    (W2 : FVec Ideal Cert.Pre_finite_inputs.S128x128 .f32) (b2 : FVec Ideal Cert.Pre_finite_inputs.S128 .f32)
    (h : Cert.Pre_finite_inputs.fn (F := Ideal) x ei W1 b1 W2 b2 = fun _ => 1#1) :
    (∀ i, FloatOps.cmpf .olt (FloatOps.hostAbsf (x i)) (FloatOps.ofBits (F := Ideal) .f32 0x7F800000#32) = 1#1)
      ∧ (∀ j, IntOp.cmpi .sge (ei j) 0#32 = 1#1) ∧ (∀ j, IntOp.cmpi .slt (ei j) 10000#32 = 1#1) := by
  have e := congrFun h ix0
  dsimp only [Cert.Pre_finite_inputs.fn, Cert.Pre_finite_inputs.fn_part1] at e
  simp only [andi, IntOp.andi_eq_one] at e
  obtain ⟨⟨⟨⟨⟨⟨hx, -⟩, -⟩, -⟩, -⟩, hge⟩, hlt⟩ := e
  refine ⟨fun i => ?_, fun j => ?_, fun j => ?_⟩
  · exact Host.reduce_andi_all _ _ _ _ _ hx i
  · exact Host.reduce_andi_all _ _ _ _ _ hge j
  · exact Host.reduce_andi_all _ _ _ _ _ hlt j

/-- Under the precondition every feature is finite. -/
theorem pre_real (x : FVec Ideal Cert.Pre_finite_inputs.S10000x128 .f32) (ei : IVec Cert.Pre_finite_inputs.S2x640000 32)
    (W1 : FVec Ideal Cert.Pre_finite_inputs.S128x128 .f32) (b1 : FVec Ideal Cert.Pre_finite_inputs.S128 .f32)
    (W2 : FVec Ideal Cert.Pre_finite_inputs.S128x128 .f32) (b2 : FVec Ideal Cert.Pre_finite_inputs.S128 .f32)
    (h : Cert.Pre_finite_inputs.fn (F := Ideal) x ei W1 b1 W2 b2 = fun _ => 1#1) :
    ∀ i, IsReal (x i) := by
  exact fun i => isReal_of_cmp (x i) ((pre_split x ei W1 b1 W2 b2 h).1 i)

/-- Under the precondition every entry of the edge list is a node index. -/
theorem pre_inRange (x : FVec Ideal Cert.Pre_finite_inputs.S10000x128 .f32) (ei : IVec Cert.Pre_finite_inputs.S2x640000 32)
    (W1 : FVec Ideal Cert.Pre_finite_inputs.S128x128 .f32) (b1 : FVec Ideal Cert.Pre_finite_inputs.S128 .f32)
    (W2 : FVec Ideal Cert.Pre_finite_inputs.S128x128 .f32) (b2 : FVec Ideal Cert.Pre_finite_inputs.S128 .f32)
    (h : Cert.Pre_finite_inputs.fn (F := Ideal) x ei W1 b1 W2 b2 = fun _ => 1#1) :
    InRange ei := by
  intro j
  obtain ⟨-, hge, hlt⟩ := pre_split x ei W1 b1 W2 b2 h
  have h0 := IntOp.cmpi_sge.1 (hge j)
  have h1 := IntOp.cmpi_slt.1 (hlt j)
  rw [show (0#32 : BitVec 32).toInt = 0 from by decide] at h0
  rw [show (10000#32 : BitVec 32).toInt = 10000 from by decide] at h1
  exact ⟨h0, h1⟩

end Cert.Gin

end
-- ==== Proof.lean ====
/-
  A graph-isomorphism layer on 10000 nodes and 640000 edges: out_i = max(h_i · W1 + b1, 0) · W2 + b2 with
  h_i = x_i + Σ_{e : target e = i} x_{source e}.

  The reference gathers the source rows and sums them into the target rows edge by edge.  The kernel scatters the
  edges into a 10000 × 10000 matrix of edge counts, adds the identity, pads to 10240, and multiplies the padded
  features by it block by block (5 × 5 blocks of 2048, an accumulator carried across a row block's column blocks),
  applying the two dense layers at each row block's last column block.  Over the extended reals the two agree when
  the features are finite (the count matrix times the features is the edge-by-edge sum: a real-number identity,
  false at infinities) and every entry of the edge list names a node (the two programs treat an out-of-range or
  negative entry differently: the statement's precondition asks 0 ≤ entry < 10000).  The changes of float format
  on the kernel's side are the identity on the extended reals, and a matrix-unit product into a zero accumulator is
  the host's dot product.

  Spec.lean states the layer; RefValue.lean reads the reference at an index; KPieces / KPay / KAcc / KFinal read the
  kernel's run (what each case of the body leaves, the accumulator's fold over a row block, the output array, the
  final slice); KHost / KHostAdj read the kernel's operand arrays; Algebra.lean is the one law between the two
  sides; PreDecode.lean reads the precondition; Bridge.lean puts the kernel's side together.
-/
import proofs.«411089_j89635967467763_1_alg».proof.Defs
import proofs.«411089_j89635967467763_1_alg».proof.Proof.Gen.Kernel
import proofs.«411089_j89635967467763_1_alg».proof.Proof.Gen.Kernel.Skeleton
import proofs.«411089_j89635967467763_1_alg».proof.Proof.Gen.Kernel.Launch
import proofs.«411089_j89635967467763_1_alg».proof.Proof.Gen.Kernel.Points
import proofs.«411089_j89635967467763_1_alg».proof.Proof.Gen.Kernel.Frame
import proofs.«411089_j89635967467763_1_alg».proof.Proof.Gen.KernelIdeal
import proofs.«411089_j89635967467763_1_alg».proof.Proof.Gen.KernelIdeal.Skeleton
import proofs.«411089_j89635967467763_1_alg».proof.Proof.Gen.KernelIdeal.Launch
import proofs.«411089_j89635967467763_1_alg».proof.Proof.Gen.KernelIdeal.Points
import proofs.«411089_j89635967467763_1_alg».proof.Proof.Gen.KernelIdeal.Frame
import proofs.«411089_j89635967467763_1_alg».proof.Proof.Gen.ReferenceIdeal
import proofs.«411089_j89635967467763_1_alg».proof.Proof.Gen.Pre_finite_inputs
import proofs.«411089_j89635967467763_1_alg».proof.Proof.Gen.ReferenceIdeal.Run
import proofs.«411089_j89635967467763_1_alg».proof.Proof.Gen.ReferenceIdeal.Read
import proofs.«411089_j89635967467763_1_alg».proof.Proof.Bridge
import proofs.«411089_j89635967467763_1_alg».proof.Proof.RefValue
import proofs.«411089_j89635967467763_1_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's result of the (agreeing) arguments. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hp := hpre c
  have hx := Cert.Gin.pre_real _ _ _ _ _ _ hp
  have hr := Cert.Gin.pre_inRange _ _ _ _ _ _ hp
  show _ = Cert.KernelIdeal.KValue.result m c
  rw [Cert.KernelIdeal.KValue.result_eq m c hr hx,
    (hagree c).1, (hagree c).2.1, (hagree c).2.2.1, (hagree c).2.2.2.1, (hagree c).2.2.2.2.1, (hagree c).2.2.2.2.2]
  exact (Cert.ReferenceIdeal.Read.val_main_v23_eq _ _ _ _ _ _).trans (Cert.ReferenceIdeal.RefValue.result_eq _ _ _ _ _ _ hr)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
